-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x722 : Shape := ⟨3, ![16, 4096, 722]⟩
abbrev S16x4096 : Shape := ⟨2, ![16, 4096]⟩
abbrev S_ : Shape := ⟨0, ![]⟩

class Facts : Prop where
  bcast_S_S16x4096x722 : S_.BroadcastsInDim S16x4096x722 (![] : Fin 0 → Fin S16x4096x722.rank)
  reducesTo_S16x4096x722_S_d0_1_2 : S16x4096x722.ReducesTo [0, 1, 2] S_
  h_S_ : 0 < S_.numel

variable [Facts]

def fn {F : FTy → Type} [FloatOps F] (main_arg0 : FVec F S16x4096x722 .f32) (main_arg1 : IVec S16x4096 32) : IVec S_ 1 :=
  let main_v0 : FVec F S16x4096x722 .f32 := Host.absf main_arg0
  let main_cst : FVec F S_ .f32 := constant S_ .f32 0x7F800000#32
  let main_v1 : FVec F S16x4096x722 .f32 := broadcastInDim S16x4096x722 ![] bcast_S_S16x4096x722 main_cst
  let main_v2 : IVec S16x4096x722 1 := cmpf .olt main_v0 main_v1
  let main_c : IVec S_ 1 := constantI S_ 1 1#1
  let main_v3 : IVec S_ 1 := (fun x v => Host.reduce IntOp.andi x v reducesTo_S16x4096x722_S_d0_1_2 h_S_) main_v2 main_c
  main_v3
-- ==== Kernel.lean ====
abbrev S16x4096x722 : Shape := ⟨3, ![16, 4096, 722]⟩
abbrev S16x4096 : Shape := ⟨2, ![16, 4096]⟩
abbrev S16x4096x1 : Shape := ⟨3, ![16, 4096, 1]⟩
abbrev S16x8x128 : Shape := ⟨3, ![16, 8, 128]⟩
abbrev S1x1024x722 : Shape := ⟨3, ![1, 1024, 722]⟩
abbrev S1x1024x1 : Shape := ⟨3, ![1, 1024, 1]⟩
abbrev S1x8x128 : Shape := ⟨3, ![1, 8, 128]⟩
abbrev S8x128 : Shape := ⟨2, ![8, 128]⟩
abbrev S1024x722 : Shape := ⟨2, ![1024, 722]⟩
abbrev S1024x1 : Shape := ⟨2, ![1024, 1]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S16x4096x722, .f32⟩
  | .hbm, ⟨1, _⟩ => ⟨S16x4096, .i32⟩
  | .hbm, ⟨2, _⟩ => ⟨S16x4096x1, .i32⟩
  | .hbm, ⟨3, _⟩ => ⟨S16x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x1024x722, .f32⟩
  | .local _ .vmem, ⟨1, _⟩ => ⟨S1x1024x722, .f32⟩
  | .local _ .vmem, ⟨2, _⟩ => ⟨S1x1024x1, .i32⟩
  | .local _ .vmem, ⟨3, _⟩ => ⟨S1x1024x1, .i32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S16x4096x722, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32_44 : BitVec 32 := 3#32
  let v124 : BitVec 1 := Scalar.cmpi .eq arg1 c3_i32_44
  let v125 : BitVec 32 := Scalar.extui v124
  let c0_i32_45 : BitVec 32 := 0#32
  let v126 : BitVec 1 := Scalar.cmpi .ne v125 c0_i32_45
  v126

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x722 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x4096_S16x4096x1 : S16x4096.ShapeCasts S16x4096x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x1024x722_S1x1024x722_0_0_0 : ∀ a, (![0, 0, 0] : Fin 3 → Nat) a + S1x1024x722.size a ≤ S1x1024x722.size a
  h_S1x1024x722 : 0 < S1x1024x722.numel
  shapeCasts_S1x1024x722_S1024x722 : S1x1024x722.ShapeCasts S1024x722
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  reduces_S1024x722_S1024 : S1024x722.Reduces [1] S1024
  shapeCasts_S1024_S1024x1 : S1024.ShapeCasts S1024x1
  broadcasts_S1024x1_S1024x722 : S1024x1.Broadcasts S1024x722
  iota_S1024x722_d1_w32 : S1024x722.Iotas .tc 32 [1]
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S16x8x128_S_d0_1_2 : S16x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x722.size a ≤ S16x4096x722.size a
  hwx0_0 : ∀ i : grid0.Coords, EltTy.bits .f32 = 32 ∨ (Rect.block (s := S16x4096x722) S1x1024x722.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S16x4096x1.size a
  hwx0_1 : ∀ i : grid0.Coords, EltTy.bits .i32 = 32 ∨ (Rect.block (s := S16x4096x1) S1x1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_arg0) S1x1024x722.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x4096x722 : Shape := ⟨3, ![16, 4096, 722]⟩
abbrev S16x4096 : Shape := ⟨2, ![16, 4096]⟩
abbrev S_ : Shape := ⟨0, ![]⟩
abbrev S16x4096x1 : Shape := ⟨3, ![16, 4096, 1]⟩
abbrev S16 : Shape := ⟨1, ![16]⟩
abbrev S16x1 : Shape := ⟨2, ![16, 1]⟩
abbrev S4096 : Shape := ⟨1, ![4096]⟩
abbrev S1x4096 : Shape := ⟨2, ![1, 4096]⟩
abbrev S16x4096x3 : Shape := ⟨3, ![16, 4096, 3]⟩

abbrev nBuf : Space → Nat
  | .hbm => 359
  | .vmem => 0
  | .smem => 0
  | _ => 0

abbrev hbmTy0_0 (i : Nat) : BufTy := match i % 128 with
  | 0 => ⟨S16x4096x722, .f32⟩
  | 1 => ⟨S16x4096, .i32⟩
  | 2 => ⟨S_, .f32⟩
  | 3 => ⟨S16x4096, .f32⟩
  | 4 => ⟨S_, .f32⟩
  | 5 => ⟨S16x4096, .f32⟩
  | 6 => ⟨S16x4096, .f32⟩
  | 7 => ⟨S16x4096x1, .f32⟩
  | 8 => ⟨S16x4096x722, .f32⟩
  | 9 => ⟨S16x4096x722, .f32⟩
  | 10 => ⟨S16x4096x722, .f32⟩
  | 11 => ⟨S_, .f32⟩
  | 12 => ⟨S16x4096, .f32⟩
  | 13 => ⟨S16x4096x1, .f32⟩
  | 14 => ⟨S16x4096x1, .f32⟩
  | 15 => ⟨S16x4096x722, .f32⟩
  | 16 => ⟨S16x4096x722, .f32⟩
  | 17 => ⟨S16, .i32⟩
  | 18 => ⟨S16x1, .i32⟩
  | 19 => ⟨S4096, .i32⟩
  | 20 => ⟨S1x4096, .i32⟩
  | 21 => ⟨S_, .f32⟩
  | 22 => ⟨S16x4096x722, .f32⟩
  | 23 => ⟨S_, .i32⟩
  | 24 => ⟨S16x4096, .i32⟩
  | 25 => ⟨S16x4096, .i32⟩
  | 26 => ⟨S_, .i32⟩
  | 27 => ⟨S_, .i32⟩
  | 28 => ⟨S_, .i32⟩
  | 29 => ⟨S16x4096, .i32⟩
  | 30 => ⟨S16x4096, .i32⟩
  | 31 => ⟨S_, .i32⟩
  | 32 => ⟨S16x4096, .i32⟩
  | 33 => ⟨S16x4096, .i32⟩
  | 34 => ⟨S_, .i32⟩
  | 35 => ⟨S16x1, .i32⟩
  | 36 => ⟨S16x1, .i1⟩
  | 37 => ⟨S_, .i32⟩
  | 38 => ⟨S16x1, .i32⟩
  | 39 => ⟨S16x1, .i32⟩
  | 40 => ⟨S16x1, .i32⟩
  | 41 => ⟨S_, .i32⟩
  | 42 => ⟨S1x4096, .i32⟩
  | 43 => ⟨S1x4096, .i1⟩
  | 44 => ⟨S_, .i32⟩
  | 45 => ⟨S1x4096, .i32⟩
  | 46 => ⟨S1x4096, .i32⟩
  | 47 => ⟨S1x4096, .i32⟩
  | 48 => ⟨S_, .i32⟩
  | 49 => ⟨S16x4096, .i32⟩
  | 50 => ⟨S16x4096, .i1⟩
  | 51 => ⟨S_, .i32⟩
  | 52 => ⟨S16x4096, .i32⟩
  | 53 => ⟨S16x4096, .i32⟩
  | 54 => ⟨S16x4096, .i32⟩
  | 55 => ⟨S16x4096, .i32⟩
  | 56 => ⟨S16x4096, .i32⟩
  | 57 => ⟨S16x4096x1, .i32⟩
  | 58 => ⟨S16x4096x1, .i32⟩
  | 59 => ⟨S16x4096x1, .i32⟩
  | 60 => ⟨S16x4096x3, .i32⟩
  | 61 => ⟨S_, .f32⟩
  | 62 => ⟨S16x4096, .f32⟩
  | 63 => ⟨S16x4096x722, .f32⟩
  | 64 => ⟨S_, .i32⟩
  | 65 => ⟨S16x4096, .i32⟩
  | 66 => ⟨S16x4096, .i32⟩
  | 67 => ⟨S_, .i32⟩
  | 68 => ⟨S_, .i32⟩
  | 69 => ⟨S_, .i32⟩
  | 70 => ⟨S16x4096, .i32⟩
  | 71 => ⟨S16x4096, .i32⟩
  | 72 => ⟨S_, .i32⟩
  | 73 => ⟨S16x4096, .i32⟩
  | 74 => ⟨S16x4096, .i32⟩
  | 75 => ⟨S_, .i32⟩
  | 76 => ⟨S16x1, .i32⟩
  | 77 => ⟨S16x1, .i1⟩
  | 78 => ⟨S_, .i32⟩
  | 79 => ⟨S16x1, .i32⟩
  | 80 => ⟨S16x1, .i32⟩
  | 81 => ⟨S16x1, .i32⟩
  | 82 => ⟨S_, .i32⟩
  | 83 => ⟨S1x4096, .i32⟩
  | 84 => ⟨S1x4096, .i1⟩
  | 85 => ⟨S_, .i32⟩
  | 86 => ⟨S1x4096, .i32⟩
  | 87 => ⟨S1x4096, .i32⟩
  | 88 => ⟨S1x4096, .i32⟩
  | 89 => ⟨S_, .i32⟩
  | 90 => ⟨S16x4096, .i32⟩
  | 91 => ⟨S16x4096, .i1⟩
  | 92 => ⟨S_, .i32⟩
  | 93 => ⟨S16x4096, .i32⟩
  | 94 => ⟨S16x4096, .i32⟩
  | 95 => ⟨S16x4096, .i32⟩
  | 96 => ⟨S16x4096, .i32⟩
  | 97 => ⟨S16x4096, .i32⟩
  | 98 => ⟨S16x4096x1, .i32⟩
  | 99 => ⟨S16x4096x1, .i32⟩
  | 100 => ⟨S16x4096x1, .i32⟩
  | 101 => ⟨S16x4096x3, .i32⟩
  | 102 => ⟨S_, .f32⟩
  | 103 => ⟨S16x4096, .f32⟩
  | 104 => ⟨S16x4096x722, .f32⟩
  | 105 => ⟨S_, .i32⟩
  | 106 => ⟨S16x4096, .i32⟩
  | 107 => ⟨S16x4096, .i32⟩
  | 108 => ⟨S_, .i32⟩
  | 109 => ⟨S_, .i32⟩
  | 110 => ⟨S_, .i32⟩
  | 111 => ⟨S16x4096, .i32⟩
  | 112 => ⟨S16x4096, .i32⟩
  | 113 => ⟨S_, .i32⟩
  | 114 => ⟨S16x4096, .i32⟩
  | 115 => ⟨S16x4096, .i32⟩
  | 116 => ⟨S_, .i32⟩
  | 117 => ⟨S16x1, .i32⟩
  | 118 => ⟨S16x1, .i1⟩
  | 119 => ⟨S_, .i32⟩
  | 120 => ⟨S16x1, .i32⟩
  | 121 => ⟨S16x1, .i32⟩
  | 122 => ⟨S16x1, .i32⟩
  | 123 => ⟨S_, .i32⟩
  | 124 => ⟨S1x4096, .i32⟩
  | 125 => ⟨S1x4096, .i1⟩
  | 126 => ⟨S_, .i32⟩
  | 127 => ⟨S1x4096, .i32⟩
  | _ => ⟨S16x4096x722, .f32⟩

abbrev hbmTy0_1 (i : Nat) : BufTy := match i % 128 with
  | 0 => ⟨S1x4096, .i32⟩
  | 1 => ⟨S1x4096, .i32⟩
  | 2 => ⟨S_, .i32⟩
  | 3 => ⟨S16x4096, .i32⟩
  | 4 => ⟨S16x4096, .i1⟩
  | 5 => ⟨S_, .i32⟩
  | 6 => ⟨S16x4096, .i32⟩
  | 7 => ⟨S16x4096, .i32⟩
  | 8 => ⟨S16x4096, .i32⟩
  | 9 => ⟨S16x4096, .i32⟩
  | 10 => ⟨S16x4096, .i32⟩
  | 11 => ⟨S16x4096x1, .i32⟩
  | 12 => ⟨S16x4096x1, .i32⟩
  | 13 => ⟨S16x4096x1, .i32⟩
  | 14 => ⟨S16x4096x3, .i32⟩
  | 15 => ⟨S_, .f32⟩
  | 16 => ⟨S16x4096, .f32⟩
  | 17 => ⟨S16x4096x722, .f32⟩
  | 18 => ⟨S_, .i32⟩
  | 19 => ⟨S16x4096, .i32⟩
  | 20 => ⟨S16x4096, .i32⟩
  | 21 => ⟨S_, .i32⟩
  | 22 => ⟨S_, .i32⟩
  | 23 => ⟨S_, .i32⟩
  | 24 => ⟨S16x4096, .i32⟩
  | 25 => ⟨S16x4096, .i32⟩
  | 26 => ⟨S_, .i32⟩
  | 27 => ⟨S16x4096, .i32⟩
  | 28 => ⟨S16x4096, .i32⟩
  | 29 => ⟨S_, .i32⟩
  | 30 => ⟨S16x1, .i32⟩
  | 31 => ⟨S16x1, .i1⟩
  | 32 => ⟨S_, .i32⟩
  | 33 => ⟨S16x1, .i32⟩
  | 34 => ⟨S16x1, .i32⟩
  | 35 => ⟨S16x1, .i32⟩
  | 36 => ⟨S_, .i32⟩
  | 37 => ⟨S1x4096, .i32⟩
  | 38 => ⟨S1x4096, .i1⟩
  | 39 => ⟨S_, .i32⟩
  | 40 => ⟨S1x4096, .i32⟩
  | 41 => ⟨S1x4096, .i32⟩
  | 42 => ⟨S1x4096, .i32⟩
  | 43 => ⟨S_, .i32⟩
  | 44 => ⟨S16x4096, .i32⟩
  | 45 => ⟨S16x4096, .i1⟩
  | 46 => ⟨S_, .i32⟩
  | 47 => ⟨S16x4096, .i32⟩
  | 48 => ⟨S16x4096, .i32⟩
  | 49 => ⟨S16x4096, .i32⟩
  | 50 => ⟨S16x4096, .i32⟩
  | 51 => ⟨S16x4096, .i32⟩
  | 52 => ⟨S16x4096x1, .i32⟩
  | 53 => ⟨S16x4096x1, .i32⟩
  | 54 => ⟨S16x4096x1, .i32⟩
  | 55 => ⟨S16x4096x3, .i32⟩
  | 56 => ⟨S_, .f32⟩
  | 57 => ⟨S16x4096, .f32⟩
  | 58 => ⟨S16x4096x722, .f32⟩
  | 59 => ⟨S_, .i32⟩
  | 60 => ⟨S16x4096, .i32⟩
  | 61 => ⟨S16x4096, .i32⟩
  | 62 => ⟨S_, .i32⟩
  | 63 => ⟨S_, .i32⟩
  | 64 => ⟨S_, .i32⟩
  | 65 => ⟨S16x4096, .i32⟩
  | 66 => ⟨S16x4096, .i32⟩
  | 67 => ⟨S_, .i32⟩
  | 68 => ⟨S16x4096, .i32⟩
  | 69 => ⟨S16x4096, .i32⟩
  | 70 => ⟨S_, .i32⟩
  | 71 => ⟨S16x1, .i32⟩
  | 72 => ⟨S16x1, .i1⟩
  | 73 => ⟨S_, .i32⟩
  | 74 => ⟨S16x1, .i32⟩
  | 75 => ⟨S16x1, .i32⟩
  | 76 => ⟨S16x1, .i32⟩
  | 77 => ⟨S_, .i32⟩
  | 78 => ⟨S1x4096, .i32⟩
  | 79 => ⟨S1x4096, .i1⟩
  | 80 => ⟨S_, .i32⟩
  | 81 => ⟨S1x4096, .i32⟩
  | 82 => ⟨S1x4096, .i32⟩
  | 83 => ⟨S1x4096, .i32⟩
  | 84 => ⟨S_, .i32⟩
  | 85 => ⟨S16x4096, .i32⟩
  | 86 => ⟨S16x4096, .i1⟩
  | 87 => ⟨S_, .i32⟩
  | 88 => ⟨S16x4096, .i32⟩
  | 89 => ⟨S16x4096, .i32⟩
  | 90 => ⟨S16x4096, .i32⟩
  | 91 => ⟨S16x4096, .i32⟩
  | 92 => ⟨S16x4096, .i32⟩
  | 93 => ⟨S16x4096x1, .i32⟩
  | 94 => ⟨S16x4096x1, .i32⟩
  | 95 => ⟨S16x4096x1, .i32⟩
  | 96 => ⟨S16x4096x3, .i32⟩
  | 97 => ⟨S_, .f32⟩
  | 98 => ⟨S16x4096, .f32⟩
  | 99 => ⟨S16x4096x722, .f32⟩
  | 100 => ⟨S_, .i32⟩
  | 101 => ⟨S16x4096, .i32⟩
  | 102 => ⟨S16x4096, .i32⟩
  | 103 => ⟨S_, .i32⟩
  | 104 => ⟨S_, .i32⟩
  | 105 => ⟨S_, .i32⟩
  | 106 => ⟨S16x4096, .i32⟩
  | 107 => ⟨S16x4096, .i32⟩
  | 108 => ⟨S_, .i32⟩
  | 109 => ⟨S16x4096, .i32⟩
  | 110 => ⟨S16x4096, .i32⟩
  | 111 => ⟨S_, .i32⟩
  | 112 => ⟨S16x1, .i32⟩
  | 113 => ⟨S16x1, .i1⟩
  | 114 => ⟨S_, .i32⟩
  | 115 => ⟨S16x1, .i32⟩
  | 116 => ⟨S16x1, .i32⟩
  | 117 => ⟨S16x1, .i32⟩
  | 118 => ⟨S_, .i32⟩
  | 119 => ⟨S1x4096, .i32⟩
  | 120 => ⟨S1x4096, .i1⟩
  | 121 => ⟨S_, .i32⟩
  | 122 => ⟨S1x4096, .i32⟩
  | 123 => ⟨S1x4096, .i32⟩
  | 124 => ⟨S1x4096, .i32⟩
  | 125 => ⟨S_, .i32⟩
  | 126 => ⟨S16x4096, .i32⟩
  | 127 => ⟨S16x4096, .i1⟩
  | _ => ⟨S16x4096x722, .f32⟩

abbrev hbmTy0_2 (i : Nat) : BufTy := match i % 128 with
  | 0 => ⟨S_, .i32⟩
  | 1 => ⟨S16x4096, .i32⟩
  | 2 => ⟨S16x4096, .i32⟩
  | 3 => ⟨S16x4096, .i32⟩
  | 4 => ⟨S16x4096, .i32⟩
  | 5 => ⟨S16x4096, .i32⟩
  | 6 => ⟨S16x4096x1, .i32⟩
  | 7 => ⟨S16x4096x1, .i32⟩
  | 8 => ⟨S16x4096x1, .i32⟩
  | 9 => ⟨S16x4096x3, .i32⟩
  | 10 => ⟨S_, .f32⟩
  | 11 => ⟨S16x4096, .f32⟩
  | 12 => ⟨S16x4096x722, .f32⟩
  | 13 => ⟨S_, .i32⟩
  | 14 => ⟨S16x4096, .i32⟩
  | 15 => ⟨S16x4096, .i32⟩
  | 16 => ⟨S_, .i32⟩
  | 17 => ⟨S_, .i32⟩
  | 18 => ⟨S_, .i32⟩
  | 19 => ⟨S16x4096, .i32⟩
  | 20 => ⟨S16x4096, .i32⟩
  | 21 => ⟨S_, .i32⟩
  | 22 => ⟨S16x4096, .i32⟩
  | 23 => ⟨S16x4096, .i32⟩
  | 24 => ⟨S_, .i32⟩
  | 25 => ⟨S16x1, .i32⟩
  | 26 => ⟨S16x1, .i1⟩
  | 27 => ⟨S_, .i32⟩
  | 28 => ⟨S16x1, .i32⟩
  | 29 => ⟨S16x1, .i32⟩
  | 30 => ⟨S16x1, .i32⟩
  | 31 => ⟨S_, .i32⟩
  | 32 => ⟨S1x4096, .i32⟩
  | 33 => ⟨S1x4096, .i1⟩
  | 34 => ⟨S_, .i32⟩
  | 35 => ⟨S1x4096, .i32⟩
  | 36 => ⟨S1x4096, .i32⟩
  | 37 => ⟨S1x4096, .i32⟩
  | 38 => ⟨S_, .i32⟩
  | 39 => ⟨S16x4096, .i32⟩
  | 40 => ⟨S16x4096, .i1⟩
  | 41 => ⟨S_, .i32⟩
  | 42 => ⟨S16x4096, .i32⟩
  | 43 => ⟨S16x4096, .i32⟩
  | 44 => ⟨S16x4096, .i32⟩
  | 45 => ⟨S16x4096, .i32⟩
  | 46 => ⟨S16x4096, .i32⟩
  | 47 => ⟨S16x4096x1, .i32⟩
  | 48 => ⟨S16x4096x1, .i32⟩
  | 49 => ⟨S16x4096x1, .i32⟩
  | 50 => ⟨S16x4096x3, .i32⟩
  | 51 => ⟨S_, .f32⟩
  | 52 => ⟨S16x4096, .f32⟩
  | 53 => ⟨S16x4096x722, .f32⟩
  | 54 => ⟨S_, .i32⟩
  | 55 => ⟨S16x4096, .i32⟩
  | 56 => ⟨S16x4096, .i32⟩
  | 57 => ⟨S_, .i32⟩
  | 58 => ⟨S_, .i32⟩
  | 59 => ⟨S_, .i32⟩
  | 60 => ⟨S16x4096, .i32⟩
  | 61 => ⟨S16x4096, .i32⟩
  | 62 => ⟨S_, .i32⟩
  | 63 => ⟨S16x4096, .i32⟩
  | 64 => ⟨S16x4096, .i32⟩
  | 65 => ⟨S_, .i32⟩
  | 66 => ⟨S16x1, .i32⟩
  | 67 => ⟨S16x1, .i1⟩
  | 68 => ⟨S_, .i32⟩
  | 69 => ⟨S16x1, .i32⟩
  | 70 => ⟨S16x1, .i32⟩
  | 71 => ⟨S16x1, .i32⟩
  | 72 => ⟨S_, .i32⟩
  | 73 => ⟨S1x4096, .i32⟩
  | 74 => ⟨S1x4096, .i1⟩
  | 75 => ⟨S_, .i32⟩
  | 76 => ⟨S1x4096, .i32⟩
  | 77 => ⟨S1x4096, .i32⟩
  | 78 => ⟨S1x4096, .i32⟩
  | 79 => ⟨S_, .i32⟩
  | 80 => ⟨S16x4096, .i32⟩
  | 81 => ⟨S16x4096, .i1⟩
  | 82 => ⟨S_, .i32⟩
  | 83 => ⟨S16x4096, .i32⟩
  | 84 => ⟨S16x4096, .i32⟩
  | 85 => ⟨S16x4096, .i32⟩
  | 86 => ⟨S16x4096, .i32⟩
  | 87 => ⟨S16x4096, .i32⟩
  | 88 => ⟨S16x4096x1, .i32⟩
  | 89 => ⟨S16x4096x1, .i32⟩
  | 90 => ⟨S16x4096x1, .i32⟩
  | 91 => ⟨S16x4096x3, .i32⟩
  | 92 => ⟨S_, .f32⟩
  | 93 => ⟨S16x4096, .f32⟩
  | 94 => ⟨S16x4096x722, .f32⟩
  | 95 => ⟨S16x4096x722, .f32⟩
  | 96 => ⟨S_, .f32⟩
  | 97 => ⟨S16x4096, .f32⟩
  | 98 => ⟨S16x4096, .f32⟩
  | 99 => ⟨S_, .f32⟩
  | 100 => ⟨S_, .f32⟩
  | 101 => ⟨S_, .f32⟩
  | 102 => ⟨S_, .f32⟩
  | _ => ⟨S16x4096x722, .f32⟩

abbrev hbmTy (i : Nat) : BufTy := match i / 128 with
  | 0 => hbmTy0_0 i
  | 1 => hbmTy0_1 i
  | 2 => hbmTy0_2 i
  | _ => ⟨S16x4096x722, .f32⟩

abbrev bufTy : (tb : Table) → Fin (tcTables nBuf tb) → BufTy
  | .hbm, ⟨i, _⟩ => hbmTy i
  | _, _ => ⟨S16x4096x722, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_c_1 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_4 : Ref sig .tc := ⟨.hbm, 41, rfl⟩
abbrev main_v14 : Ref sig .tc := ⟨.hbm, 42, rfl⟩
abbrev main_v15 : Ref sig .tc := ⟨.hbm, 43, rfl⟩
abbrev main_c_5 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_6 : Ref sig .tc := ⟨.hbm, 48, rfl⟩
abbrev main_v19 : Ref sig .tc := ⟨.hbm, 49, rfl⟩
abbrev main_v20 : Ref sig .tc := ⟨.hbm, 50, rfl⟩
abbrev main_c_7 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_8 : Ref sig .tc := ⟨.hbm, 61, rfl⟩
abbrev main_v30 : Ref sig .tc := ⟨.hbm, 62, rfl⟩
abbrev main_v31 : Ref sig .tc := ⟨.hbm, 63, rfl⟩
abbrev main_c_9 : Ref sig .tc := ⟨.hbm, 64, rfl⟩
abbrev main_v32 : Ref sig .tc := ⟨.hbm, 65, rfl⟩
abbrev main_v33 : Ref sig .tc := ⟨.hbm, 66, rfl⟩
abbrev main_c_10 : Ref sig .tc := ⟨.hbm, 67, rfl⟩
abbrev main_c_11 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v34 : Ref sig .tc := ⟨.hbm, 74, rfl⟩
abbrev main_c_12 : Ref sig .tc := ⟨.hbm, 75, rfl⟩
abbrev main_v35 : Ref sig .tc := ⟨.hbm, 76, rfl⟩
abbrev main_v36 : Ref sig .tc := ⟨.hbm, 77, rfl⟩
abbrev main_c_13 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_14 : Ref sig .tc := ⟨.hbm, 82, rfl⟩
abbrev main_v40 : Ref sig .tc := ⟨.hbm, 83, rfl⟩
abbrev main_v41 : Ref sig .tc := ⟨.hbm, 84, rfl⟩
abbrev main_c_15 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c_16 : Ref sig .tc := ⟨.hbm, 89, rfl⟩
abbrev main_v45 : Ref sig .tc := ⟨.hbm, 90, rfl⟩
abbrev main_v46 : Ref sig .tc := ⟨.hbm, 91, rfl⟩
abbrev main_c_17 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_18 : Ref sig .tc := ⟨.hbm, 102, rfl⟩
abbrev main_v56 : Ref sig .tc := ⟨.hbm, 103, rfl⟩
abbrev main_v57 : Ref sig .tc := ⟨.hbm, 104, rfl⟩
abbrev main_c_19 : Ref sig .tc := ⟨.hbm, 105, rfl⟩
abbrev main_v58 : Ref sig .tc := ⟨.hbm, 106, rfl⟩
abbrev main_v59 : Ref sig .tc := ⟨.hbm, 107, rfl⟩
abbrev main_c_20 : Ref sig .tc := ⟨.hbm, 108, rfl⟩
abbrev main_c_21 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_v60 : Ref sig .tc := ⟨.hbm, 115, rfl⟩
abbrev main_c_22 : Ref sig .tc := ⟨.hbm, 116, rfl⟩
abbrev main_v61 : Ref sig .tc := ⟨.hbm, 117, rfl⟩
abbrev main_v62 : Ref sig .tc := ⟨.hbm, 118, rfl⟩
abbrev main_c_23 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_c_24 : Ref sig .tc := ⟨.hbm, 123, rfl⟩
abbrev main_v66 : Ref sig .tc := ⟨.hbm, 124, rfl⟩
abbrev main_v67 : Ref sig .tc := ⟨.hbm, 125, rfl⟩
abbrev main_c_25 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_c_26 : Ref sig .tc := ⟨.hbm, 130, rfl⟩
abbrev main_v71 : Ref sig .tc := ⟨.hbm, 131, rfl⟩
abbrev main_v72 : Ref sig .tc := ⟨.hbm, 132, rfl⟩
abbrev main_c_27 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_cst_28 : Ref sig .tc := ⟨.hbm, 143, rfl⟩
abbrev main_v82 : Ref sig .tc := ⟨.hbm, 144, rfl⟩
abbrev main_v83 : Ref sig .tc := ⟨.hbm, 145, rfl⟩
abbrev main_c_29 : Ref sig .tc := ⟨.hbm, 146, rfl⟩
abbrev main_v84 : Ref sig .tc := ⟨.hbm, 147, rfl⟩
abbrev main_v85 : Ref sig .tc := ⟨.hbm, 148, rfl⟩
abbrev main_c_30 : Ref sig .tc := ⟨.hbm, 149, rfl⟩
abbrev main_c_31 : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_v86 : Ref sig .tc := ⟨.hbm, 156, rfl⟩
abbrev main_c_32 : Ref sig .tc := ⟨.hbm, 157, rfl⟩
abbrev main_v87 : Ref sig .tc := ⟨.hbm, 158, rfl⟩
abbrev main_v88 : Ref sig .tc := ⟨.hbm, 159, rfl⟩
abbrev main_c_33 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_c_34 : Ref sig .tc := ⟨.hbm, 164, rfl⟩
abbrev main_v92 : Ref sig .tc := ⟨.hbm, 165, rfl⟩
abbrev main_v93 : Ref sig .tc := ⟨.hbm, 166, rfl⟩
abbrev main_c_35 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_c_36 : Ref sig .tc := ⟨.hbm, 171, rfl⟩
abbrev main_v97 : Ref sig .tc := ⟨.hbm, 172, rfl⟩
abbrev main_v98 : Ref sig .tc := ⟨.hbm, 173, rfl⟩
abbrev main_c_37 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_cst_38 : Ref sig .tc := ⟨.hbm, 184, rfl⟩
abbrev main_v108 : Ref sig .tc := ⟨.hbm, 185, rfl⟩
abbrev main_v109 : Ref sig .tc := ⟨.hbm, 186, rfl⟩
abbrev main_c_39 : Ref sig .tc := ⟨.hbm, 187, rfl⟩
abbrev main_v110 : Ref sig .tc := ⟨.hbm, 188, rfl⟩
abbrev main_v111 : Ref sig .tc := ⟨.hbm, 189, rfl⟩
abbrev main_c_40 : Ref sig .tc := ⟨.hbm, 190, rfl⟩
abbrev main_c_41 : Ref sig .tc := ⟨.hbm, 191, rfl⟩
abbrev main_call5_v0 : Ref sig .tc := ⟨.hbm, 192, rfl⟩
abbrev main_call5_v1 : Ref sig .tc := ⟨.hbm, 193, rfl⟩
abbrev main_call5_v2 : Ref sig .tc := ⟨.hbm, 194, rfl⟩
abbrev main_call5_v3 : Ref sig .tc := ⟨.hbm, 195, rfl⟩
abbrev main_call5_v4 : Ref sig .tc := ⟨.hbm, 196, rfl⟩
abbrev main_v112 : Ref sig .tc := ⟨.hbm, 197, rfl⟩
abbrev main_c_42 : Ref sig .tc := ⟨.hbm, 198, rfl⟩
abbrev main_v113 : Ref sig .tc := ⟨.hbm, 199, rfl⟩
abbrev main_v114 : Ref sig .tc := ⟨.hbm, 200, rfl⟩
abbrev main_c_43 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_c_44 : Ref sig .tc := ⟨.hbm, 205, rfl⟩
abbrev main_v118 : Ref sig .tc := ⟨.hbm, 206, rfl⟩
abbrev main_v119 : Ref sig .tc := ⟨.hbm, 207, rfl⟩
abbrev main_c_45 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_c_46 : Ref sig .tc := ⟨.hbm, 212, rfl⟩
abbrev main_v123 : Ref sig .tc := ⟨.hbm, 213, rfl⟩
abbrev main_v124 : Ref sig .tc := ⟨.hbm, 214, rfl⟩
abbrev main_c_47 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_cst_48 : Ref sig .tc := ⟨.hbm, 225, rfl⟩
abbrev main_v134 : Ref sig .tc := ⟨.hbm, 226, rfl⟩
abbrev main_v135 : Ref sig .tc := ⟨.hbm, 227, rfl⟩
abbrev main_c_49 : Ref sig .tc := ⟨.hbm, 228, rfl⟩
abbrev main_v136 : Ref sig .tc := ⟨.hbm, 229, rfl⟩
abbrev main_v137 : Ref sig .tc := ⟨.hbm, 230, rfl⟩
abbrev main_c_50 : Ref sig .tc := ⟨.hbm, 231, rfl⟩
abbrev main_c_51 : Ref sig .tc := ⟨.hbm, 232, rfl⟩
abbrev main_call6_v0 : Ref sig .tc := ⟨.hbm, 233, rfl⟩
abbrev main_call6_v1 : Ref sig .tc := ⟨.hbm, 234, rfl⟩
abbrev main_call6_v2 : Ref sig .tc := ⟨.hbm, 235, rfl⟩
abbrev main_call6_v3 : Ref sig .tc := ⟨.hbm, 236, rfl⟩
abbrev main_call6_v4 : Ref sig .tc := ⟨.hbm, 237, rfl⟩
abbrev main_v138 : Ref sig .tc := ⟨.hbm, 238, rfl⟩
abbrev main_c_52 : Ref sig .tc := ⟨.hbm, 239, rfl⟩
abbrev main_v139 : Ref sig .tc := ⟨.hbm, 240, rfl⟩
abbrev main_v140 : Ref sig .tc := ⟨.hbm, 241, rfl⟩
abbrev main_c_53 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_c_54 : Ref sig .tc := ⟨.hbm, 246, rfl⟩
abbrev main_v144 : Ref sig .tc := ⟨.hbm, 247, rfl⟩
abbrev main_v145 : Ref sig .tc := ⟨.hbm, 248, rfl⟩
abbrev main_c_55 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_c_56 : Ref sig .tc := ⟨.hbm, 253, rfl⟩
abbrev main_v149 : Ref sig .tc := ⟨.hbm, 254, rfl⟩
abbrev main_v150 : Ref sig .tc := ⟨.hbm, 255, rfl⟩
abbrev main_c_57 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_cst_58 : Ref sig .tc := ⟨.hbm, 266, rfl⟩
abbrev main_v160 : Ref sig .tc := ⟨.hbm, 267, rfl⟩
abbrev main_v161 : Ref sig .tc := ⟨.hbm, 268, rfl⟩
abbrev main_c_59 : Ref sig .tc := ⟨.hbm, 269, rfl⟩
abbrev main_v162 : Ref sig .tc := ⟨.hbm, 270, rfl⟩
abbrev main_v163 : Ref sig .tc := ⟨.hbm, 271, rfl⟩
abbrev main_c_60 : Ref sig .tc := ⟨.hbm, 272, rfl⟩
abbrev main_c_61 : Ref sig .tc := ⟨.hbm, 273, rfl⟩
abbrev main_call7_v0 : Ref sig .tc := ⟨.hbm, 274, rfl⟩
abbrev main_call7_v1 : Ref sig .tc := ⟨.hbm, 275, rfl⟩
abbrev main_call7_v2 : Ref sig .tc := ⟨.hbm, 276, rfl⟩
abbrev main_call7_v3 : Ref sig .tc := ⟨.hbm, 277, rfl⟩
abbrev main_call7_v4 : Ref sig .tc := ⟨.hbm, 278, rfl⟩
abbrev main_v164 : Ref sig .tc := ⟨.hbm, 279, rfl⟩
abbrev main_c_62 : Ref sig .tc := ⟨.hbm, 280, rfl⟩
abbrev main_v165 : Ref sig .tc := ⟨.hbm, 281, rfl⟩
abbrev main_v166 : Ref sig .tc := ⟨.hbm, 282, rfl⟩
abbrev main_c_63 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_c_64 : Ref sig .tc := ⟨.hbm, 287, rfl⟩
abbrev main_v170 : Ref sig .tc := ⟨.hbm, 288, rfl⟩
abbrev main_v171 : Ref sig .tc := ⟨.hbm, 289, rfl⟩
abbrev main_c_65 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_c_66 : Ref sig .tc := ⟨.hbm, 294, rfl⟩
abbrev main_v175 : Ref sig .tc := ⟨.hbm, 295, rfl⟩
abbrev main_v176 : Ref sig .tc := ⟨.hbm, 296, rfl⟩
abbrev main_c_67 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_cst_68 : Ref sig .tc := ⟨.hbm, 307, rfl⟩
abbrev main_v186 : Ref sig .tc := ⟨.hbm, 308, rfl⟩
abbrev main_v187 : Ref sig .tc := ⟨.hbm, 309, rfl⟩
abbrev main_c_69 : Ref sig .tc := ⟨.hbm, 310, rfl⟩
abbrev main_v188 : Ref sig .tc := ⟨.hbm, 311, rfl⟩
abbrev main_v189 : Ref sig .tc := ⟨.hbm, 312, rfl⟩
abbrev main_c_70 : Ref sig .tc := ⟨.hbm, 313, rfl⟩
abbrev main_c_71 : Ref sig .tc := ⟨.hbm, 314, rfl⟩
abbrev main_call8_v0 : Ref sig .tc := ⟨.hbm, 315, rfl⟩
abbrev main_call8_v1 : Ref sig .tc := ⟨.hbm, 316, rfl⟩
abbrev main_call8_v2 : Ref sig .tc := ⟨.hbm, 317, rfl⟩
abbrev main_call8_v3 : Ref sig .tc := ⟨.hbm, 318, rfl⟩
abbrev main_call8_v4 : Ref sig .tc := ⟨.hbm, 319, rfl⟩
abbrev main_v190 : Ref sig .tc := ⟨.hbm, 320, rfl⟩
abbrev main_c_72 : Ref sig .tc := ⟨.hbm, 321, rfl⟩
abbrev main_v191 : Ref sig .tc := ⟨.hbm, 322, rfl⟩
abbrev main_v192 : Ref sig .tc := ⟨.hbm, 323, rfl⟩
abbrev main_c_73 : Ref sig .tc := ⟨.hbm, 324, rfl⟩
abbrev main_v193 : Ref sig .tc := ⟨.hbm, 325, rfl⟩
abbrev main_v194 : Ref sig .tc := ⟨.hbm, 326, rfl⟩
abbrev main_v195 : Ref sig .tc := ⟨.hbm, 327, rfl⟩
abbrev main_c_74 : Ref sig .tc := ⟨.hbm, 328, rfl⟩
abbrev main_v196 : Ref sig .tc := ⟨.hbm, 329, rfl⟩
abbrev main_v197 : Ref sig .tc := ⟨.hbm, 330, rfl⟩
abbrev main_c_75 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_c_76 : Ref sig .tc := ⟨.hbm, 335, rfl⟩
abbrev main_v201 : Ref sig .tc := ⟨.hbm, 336, rfl⟩
abbrev main_v202 : Ref sig .tc := ⟨.hbm, 337, rfl⟩
abbrev main_c_77 : Ref sig .tc := ⟨.hbm, 338, rfl⟩
abbrev main_v203 : Ref sig .tc := ⟨.hbm, 339, rfl⟩
abbrev main_v204 : Ref sig .tc := ⟨.hbm, 340, rfl⟩
abbrev main_v205 : Ref sig .tc := ⟨.hbm, 341, rfl⟩
abbrev main_v206 : Ref sig .tc := ⟨.hbm, 342, rfl⟩
abbrev main_v207 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_v211 : Ref sig .tc := ⟨.hbm, 347, rfl⟩
abbrev main_cst_78 : Ref sig .tc := ⟨.hbm, 348, rfl⟩
abbrev main_v212 : Ref sig .tc := ⟨.hbm, 349, rfl⟩
abbrev main_v213 : Ref sig .tc := ⟨.hbm, 350, rfl⟩
abbrev main_v214 : Ref sig .tc := ⟨.hbm, 351, rfl⟩
abbrev main_cst_79 : Ref sig .tc := ⟨.hbm, 352, rfl⟩
abbrev main_v215 : Ref sig .tc := ⟨.hbm, 353, rfl⟩
abbrev main_v216 : Ref sig .tc := ⟨.hbm, 354, rfl⟩
abbrev main_cst_80 : Ref sig .tc := ⟨.hbm, 355, rfl⟩
abbrev main_v217 : Ref sig .tc := ⟨.hbm, 356, rfl⟩
abbrev main_cst_81 : Ref sig .tc := ⟨.hbm, 357, rfl⟩
abbrev main_v218 : Ref sig .tc := ⟨.hbm, 358, rfl⟩

abbrev nD : Nat := 1
abbrev τ : Topo := Topo.v7x

variable {F : FTy → Type} [FloatOps F]

class Facts₀ : Prop where
  reducesTo_S16x4096x722_S16x4096_d2 : S16x4096x722.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x722_0_1_2 : S16x4096x1.BroadcastsInDim S16x4096x722 (![0, 1, 2] : Fin 3 → Fin S16x4096x722.rank)
  bcast_S16_S16x1_0 : S16.BroadcastsInDim S16x1 (![0] : Fin 1 → Fin S16x1.rank)
  bcast_S4096_S1x4096_1 : S4096.BroadcastsInDim S1x4096 (![1] : Fin 1 → Fin S1x4096.rank)
  bcast_S_S16x4096x722 : S_.BroadcastsInDim S16x4096x722 (![] : Fin 0 → Fin S16x4096x722.rank)
  bcast_S_S16x1 : S_.BroadcastsInDim S16x1 (![] : Fin 0 → Fin S16x1.rank)
  bcast_S_S1x4096 : S_.BroadcastsInDim S1x4096 (![] : Fin 0 → Fin S1x4096.rank)
  bcast_S16x1_S16x4096_0_1 : S16x1.BroadcastsInDim S16x4096 (![0, 1] : Fin 2 → Fin S16x4096.rank)
  bcast_S1x4096_S16x4096_0_1 : S1x4096.BroadcastsInDim S16x4096 (![0, 1] : Fin 2 → Fin S16x4096.rank)
  concatenates_S16x4096x1_S16x4096x1_S16x4096x1_S16x4096x3_d2 : Shape.Concatenates [S16x4096x1, S16x4096x1, S16x4096x1] S16x4096x3 2
  reducesTo_S16x4096_S_d0_1 : S16x4096.ReducesTo [0, 1] S_
  scatter_S16x4096x722_S16x4096x3_S16x4096_n_012_012_2_wf : ScatterDims.WF S16x4096x722 S16x4096x3 S16x4096 [] [0, 1, 2] [0, 1, 2] 2

variable [Facts₀]

def scatter_S16x4096x722_S16x4096x3_S16x4096_n_012_012_2 : ScatterDims S16x4096x722 S16x4096x3 S16x4096 where
  updateWindowDims := []
  insertedWindowDims := [0, 1, 2]
  scatterDimsToOperandDims := [0, 1, 2]
  indexVectorDim := 2
  wf := scatter_S16x4096x722_S16x4096x3_S16x4096_n_012_012_2_wf

class Facts : Prop extends Facts₀ where

variable [Facts]
-- ==== Proof.Spec.lean ====
/-
  The mathematics of the loss, stated once, over no program.

  For one frame with logits `x : Fin 722 → EReal` and class word `τ`:
  * `rowMax x` is the largest logit (a fold of `max` that starts at the f32 pattern of −∞ and is met once more
    with that pattern, as `jnp.max(…, initial=-inf)` writes it);
  * `logp x c = (x c − rowMax x) − log Σₖ exp (x k − rowMax x)`, the log-softmax;
  * `wt τ c` is the smoothed one-hot weight of class `c`: eight overwrites of a zero row, the farthest neighbour
    first, at the classes `clamp (τ ± d)` (`d = 3, 2, 1, 0`; word arithmetic wraps, the clamp is to `[0, 721]`),
    a later overwrite winning — so the nested `if` below tests the LAST overwrite first;
  * `rowLoss x τ = −Σ_c logp x c · wt τ c`.
  The loss of the whole batch is the sum of the frames' losses (`total`), and the result is that sum over 65536
  (`final`; the zero it is added to and the divisor stay the f32 patterns both programs write).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The f32 pattern of −∞, kept as a pattern: both programs start their row maximum from it. -/
abbrev negInf : EReal := Ideal.ofBits .f32 0xFF800000#32
/-- The f32 pattern of zero, kept as a pattern (it is the extended real `0`: `Ideal.ofBits_zero_f32`). -/
abbrev zeroW : EReal := Ideal.ofBits .f32 0x00000000#32

/-- The row maximum: `max` of −∞ and the fold of `max` from −∞ over the 722 logits. -/
def rowMax (x : Fin 722 → EReal) : EReal :=
  max negInf ((Finset.univ : Finset (Fin 722)).fold max negInf x)

/-- The log-softmax of one row at class `c`. -/
def logp (x : Fin 722 → EReal) (c : Fin 722) : EReal :=
  (x c - rowMax x) - Ideal.log (∑ k : Fin 722, Ideal.exp (x k - rowMax x))

/-- A class word clamped to `[0, 721]`, signed: first from below, then from above. -/
def clampC (v : BitVec 32) : BitVec 32 := IntOp.minsi 721#32 (IntOp.maxsi 0#32 v)

/-- Class `c` is the clamped neighbour `τ + d` of the target class (the sum wraps). -/
def hit (τ d : BitVec 32) (c : Fin 722) : Prop := BitVec.ofNat 32 c.val = clampC (IntOp.addi τ d)

instance (τ d : BitVec 32) (c : Fin 722) : Decidable (hit τ d c) := by unfold hit; infer_instance

/-- The four decays exp(−2ᵈ/4), d = 0 … 3, as the f32 patterns both programs write. -/
abbrev dec0 : EReal := Ideal.ofBits .f32 0x3F475F7D#32
abbrev dec1 : EReal := Ideal.ofBits .f32 0x3F1B4598#32
abbrev dec2 : EReal := Ideal.ofBits .f32 0x3EBC5AB2#32
abbrev dec3 : EReal := Ideal.ofBits .f32 0x3E0A9555#32

/-- The smoothed one-hot weight of class `c` for target word `τ`: the overwrites were made in the order
    (+3, −3, +2, −2, +1, −1, +0, −0) and the last one to touch `c` wins, so they are tested in the reverse order. -/
def wt (τ : BitVec 32) (c : Fin 722) : EReal :=
  if hit τ 0#32 c then dec0 else
  if hit τ 0#32 c then dec0 else
  if hit τ 4294967295#32 c then dec1 else
  if hit τ 1#32 c then dec1 else
  if hit τ 4294967294#32 c then dec2 else
  if hit τ 2#32 c then dec2 else
  if hit τ 4294967293#32 c then dec3 else
  if hit τ 3#32 c then dec3 else zeroW

/-- One frame's loss. -/
def rowLoss (x : Fin 722 → EReal) (τ : BitVec 32) : EReal := -(∑ c : Fin 722, logp x c * wt τ c)

/-- The frames' losses added up over the whole batch `pred : [16, 4096, 722]`, `tgt : [16, 4096]`. -/
def total (pred : (⟨3, ![16, 4096, 722]⟩ : Shape).Idx → EReal) (tgt : (⟨2, ![16, 4096]⟩ : Shape).Idx → BitVec 32) : EReal :=
  ∑ b : Fin 16, ∑ t : Fin 4096, rowLoss (fun c => pred (ix3 b t c)) (tgt (ix2 b t))

/-- The result: the total (added to the zero pattern a host sum starts from) divided by the pattern of 65536. -/
def final (pred : (⟨3, ![16, 4096, 722]⟩ : Shape).Idx → EReal) (tgt : (⟨2, ![16, 4096]⟩ : Shape).Idx → BitVec 32) : EReal :=
  Ideal.div (zeroW + total pred tgt) (Ideal.ofBits .f32 0x47800000#32)

/-- The loss of one block of 1024 frames, `rows r` the logits of frame `r` and `cls r` its class word: what one
    grid point of the kernel adds to its accumulator. -/
def blockLoss (rows : Fin 1024 → Fin 722 → EReal) (cls : Fin 1024 → BitVec 32) : EReal :=
  ∑ r : Fin 1024, rowLoss (rows r) (cls r)

end Cert.Spec

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KPayLogp.lean ====
/-
  The kernel's log-softmax payload read at an element: for row r of a block, the logit less the row maximum, less the
  logarithm of the row's sum of exponentials of those differences.
-/
import proofs.«415570_j35390530519630_1_alg».proof.Proof.Gen.KernelIdeal.Skeleton
import proofs.«415570_j35390530519630_1_alg».proof.Proof.Spec
import proofs.«415570_j35390530519630_1_alg».proof.Proof.LibColumns
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KPay

open Cert.KernelIdeal Cert.KernelIdeal.Gen Idealize.ShloMosaic Idealize.ShloMosaic.ValueIdx

/-- An `[1024]` vector of row values, cast to a column and broadcast along the class axis, reads at (r, k) the row's value. -/
private theorem col_apply {α : Type} (m : S1024.Idx → α) (hc : S1024.ShapeCasts S1024x1) (hb : S1024x1.Broadcasts S1024x722)
    (r : Fin 1024) (k : Fin 722) :
    broadcastTo S1024x722 (shapeCast S1024x1 m hc) hb (ix2 r k) = m (ix1 r) := by
  rw [Cert.Columns.broadcastTo_a1_ab_apply, Cert.Columns.shapeCast_a_a1_apply]

/-- The same with a logarithm taken on the column before it is broadcast. -/
private theorem logCol_apply (m : FVec Ideal S1024 .f32) (hc : S1024.ShapeCasts S1024x1) (hb : S1024x1.Broadcasts S1024x722)
    (r : Fin 1024) (k : Fin 722) :
    broadcastTo S1024x722 (log (shapeCast S1024x1 m hc)) hb (ix2 r k) = Ideal.log (m (ix1 r)) := by
  rw [Cert.Columns.broadcastTo_a1_ab_apply]
  show FloatOps.log (shapeCast S1024x1 m hc (ix2 r (0 : Fin 1))) = _
  rw [Cert.Columns.shapeCast_a_a1_apply, Ideal.log_def]

/-- The exponential of a block at an entry is the exponential of the entry. -/
private theorem exp_apply (w : FVec Ideal S1024x722 .f32) (i : S1024x722.Idx) : exp w i = Ideal.exp (w i) := rfl

/-- The block's row maximum at row r: the larger of the −∞ pattern and the fold of `max` from that pattern over the
    row's 722 entries, which is the row maximum as the specification writes it. -/
private theorem rowMax_apply (v : FVec Ideal S1024x722 .f32) (hr : S1024x722.Reduces [1] S1024) (hφ : FKind.Formats .f32)
    (hacc : (0xFF800000#32 : BitVec 32) = FKind.maximumf.neutral .f32 hφ) (r : Fin 1024) :
    maximumf (broadcast S1024 (FloatOps.ofBits (F := Ideal) .f32 0xFF800000#32))
        (multiReduction .maximumf [1] S1024 v 0xFF800000#32 hr hφ hacc) (ix1 r)
      = Cert.Spec.rowMax (fun k => v (ix2 r k)) := by
  rw [maximumf_apply, broadcast_apply]
  refine congrArg (max _) ((Ideal.multiReduction_maximumf_single v _ hr hφ hacc (ix1 r)).trans ?_)
  -- the reduced index (r) with the class coordinate k put back is (r, k)
  have hl : v ∘ hr.lift (ix1 r) = fun k : Fin 722 => v (ix2 r k) :=
    funext fun k => congrArg v (funext fun a => Fin.ext (by match a with | ⟨0, _⟩ => rfl | ⟨1, _⟩ => rfl))
  rw [hl]
  rfl

/-- A row's sum over the class axis, from the zero pattern: the sum of the row's 722 entries. -/
private theorem rowSum_apply (w : FVec Ideal S1024x722 .f32) (hr : S1024x722.Reduces [1] S1024) (hφ : FKind.Formats .f32)
    (hacc : (0x00000000#32 : BitVec 32) = FKind.add.neutral .f32 hφ) (r : Fin 1024) :
    multiReduction .add [1] S1024 w 0x00000000#32 hr hφ hacc (ix1 r) = ∑ k : Fin 722, w (ix2 r k) := by
  refine (Ideal.multiReduction_add_single w _ hr hφ hacc (ix1 r)).trans ?_
  exact Finset.sum_congr rfl fun k _ =>
    congrArg w (funext fun a => Fin.ext (by match a with | ⟨0, _⟩ => rfl | ⟨1, _⟩ => rfl))

theorem pay5_apply (x0 : Vec Ideal S1x1024x722 .f32) (r : Fin 1024) (c : Fin 722) :
    k0_pay5 x0 (ix2 r c) = Cert.Spec.logp (fun k => x0 (ix3 0 r k)) c := by
  -- the block with its leading unit axis dropped: entry (r, k) is the operand's (0, r, k)
  have hx : (fun k : Fin 722 => x0 (ix3 0 r k)) = fun k => shapeCast S1024x722 x0 shapeCasts_S1x1024x722_S1024x722 (ix2 r k) :=
    funext fun k => (shapeCast_1ab_ab_apply x0 _ r k).symm
  rw [hx]
  unfold k0_pay5
  dsimp only
  generalize shapeCast S1024x722 x0 shapeCasts_S1x1024x722_S1024x722 = v
  -- the shifted entry at (r, k): the entry less the row maximum
  have hs : ∀ k : Fin 722, subf v (broadcastTo S1024x722 (shapeCast S1024x1
        (maximumf (broadcast S1024 (FloatOps.ofBits (F := Ideal) .f32 0xFF800000#32))
          (multiReduction .maximumf [1] S1024 v 0xFF800000#32 reduces_S1024x722_S1024 (.inl rfl) rfl))
        shapeCasts_S1024_S1024x1) broadcasts_S1024x1_S1024x722) (ix2 r k)
      = v (ix2 r k) - Cert.Spec.rowMax (fun k => v (ix2 r k)) := fun k => by
    rw [subf_apply, col_apply]
    exact congrArg (v (ix2 r k) - ·) (rowMax_apply v _ _ _ r)
  rw [subf_apply, hs, logCol_apply]
  unfold Cert.Spec.logp
  -- the logarithm's argument: the row's sum, term by term the exponential of the shifted entry
  refine congrArg (fun s => (v (ix2 r c) - Cert.Spec.rowMax (fun k => v (ix2 r k))) - Ideal.log s)
    ((rowSum_apply _ _ _ _ r).trans ?_)
  refine Finset.sum_congr rfl fun k _ => ?_
  rw [exp_apply, hs]

end Cert.KernelIdeal.KPay

end
-- ==== Proof.KPay.lean ====
/-
  One grid point of the kernel as arithmetic: from a block of 1024 rows of logits, the rows' class words and the
  accumulator found, the accumulator left — the found one plus, at the corner (0, 0) only, the block's loss.
-/
import proofs.«415570_j35390530519630_1_alg».proof.Proof.Gen.KernelIdeal.Skeleton
import proofs.«415570_j35390530519630_1_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«415570_j35390530519630_1_alg».proof.Proof.LibColumns
import proofs.«415570_j35390530519630_1_alg».proof.Proof.KPayLogp

set_option maxRecDepth 16384

noncomputable section

namespace Cert.KernelIdeal.KPay

open Cert.KernelIdeal Cert.KernelIdeal.Gen Idealize.ShloMosaic Idealize.ShloMosaic.ValueIdx

variable {F : FTy → Type} [FloatOps F]

/-- The class number of each lane: the iota along the class axis the body compares the clamped neighbours with. -/
abbrev lanes : IVec S1024x722 32 := iota .tc S1024x722 32 [1] iota_S1024x722_d1_w32

/-- What one grid point stores into the accumulator, from the two blocks it loads and the accumulator it finds:
    the body's payloads composed (the log-softmax, the weight chain in its three parts, the accumulation). -/
def step (x0 : Vec F S1x1024x722 .f32) (x1 : Vec F S1x1024x1 .i32) (acc : Vec F S8x128 .f32) : FVec F S8x128 .f32 :=
  k0_pay1 (k0_pay9 (k0_pay4 x1) (k0_pay5 x0) lanes (k0_pay8 (k0_pay4 x1) lanes (k0_pay6 x1) (k0_pay7 x1)) acc)

/-! ## Words: a select on an equality of words, and the class number of a lane -/

/-- A select whose condition is the equality of two words is the `if` on that equality. -/
private theorem select_cmpi_eq {α : Type} (x y : BitVec 32) (a b : α) :
    Scalar.select (IntOp.cmpi .eq x y) a b = if x = y then a else b := by
  by_cases h : x = y
  · subst h; simp [Scalar.select, IntOp.cmpi]
  · have hb : (x == y) = false := beq_eq_false_iff_ne.mpr h
    simp [Scalar.select, IntOp.cmpi, hb, h]

/-- Lane `(r, c)` carries the class number `c`. -/
private theorem lanes_apply (r : Fin 1024) (c : Fin 722) : lanes (ix2 r c) = BitVec.ofNat 32 c.val :=
  iota_single_apply .tc S1024x722 32 1 iota_S1024x722_d1_w32 (ix2 r c)

/-- An `if` changed in its `else` branch only. -/
private theorem ite_else {α : Type} {P : Prop} [Decidable P] {a b b' : α} (h : b = b') :
    (if P then a else b) = if P then a else b' := by rw [h]

/-! ## One overwrite of the weight row -/

/-- The rows' class words as a column: the leading unit axis of the block dropped. -/
private theorem pay4_apply (x1 : Vec Ideal S1x1024x1 .i32) (r : Fin 1024) (u : Fin 1) :
    k0_pay4 (F := Ideal) x1 (ix2 r u) = x1 (ix3 0 r u) :=
  shapeCast_1ab_ab_apply x1 shapeCasts_S1x1024x1_S1024x1 r u

/-- The neighbour at distance `d` of each row's class, clamped to `[0, 721]`, spread over the classes. -/
private abbrev nbr (v6 : IVec S1024x1 32) (d : BitVec 32) : IVec S1024x722 32 :=
  broadcastTo S1024x722
    (minsi (broadcast S1024x1 721#32) (maxsi (broadcast S1024x1 0#32) (addi v6 (broadcast S1024x1 d))))
    broadcasts_S1024x1_S1024x722

/-- At `(r, c)` it is the clamped neighbour of row `r`'s class, whatever the class `c`. -/
private theorem nbr_apply (v6 : IVec S1024x1 32) (d : BitVec 32) (r : Fin 1024) (c : Fin 722) :
    nbr v6 d (ix2 r c) = Cert.Spec.clampC (IntOp.addi (v6 (ix2 r 0)) d) :=
  Cert.Columns.broadcastTo_a1_ab_apply _ _ r c

/-- One overwrite at `(r, c)`: where the lane's class number is the word `w` holds there — the clamped neighbour
    `τ + d` — the decay pattern, elsewhere what the row held before. -/
private theorem overwrite_word_apply (w : IVec S1024x722 32) (τ d dec : BitVec 32) (prev : FVec Ideal S1024x722 .f32)
    (r : Fin 1024) (c : Fin 722) (hw : w (ix2 r c) = Cert.Spec.clampC (IntOp.addi τ d)) :
    select (cmpi .eq lanes w) (broadcast S1024x722 (Scalar.ofBits (F := Ideal) .f32 dec)) prev (ix2 r c)
      = if Cert.Spec.hit τ d c then Ideal.ofBits .f32 dec else prev (ix2 r c) := by
  refine (select_apply _ _ _ _).trans ?_
  show Scalar.select (IntOp.cmpi .eq (lanes (ix2 r c)) (w (ix2 r c))) (Ideal.ofBits .f32 dec) (prev (ix2 r c)) = _
  rw [lanes_apply, hw, select_cmpi_eq]
  by_cases h : Cert.Spec.hit τ d c
  · rw [if_pos h]; exact if_pos (show BitVec.ofNat 32 c.val = _ from h)
  · rw [if_neg h]; exact if_neg (show ¬ BitVec.ofNat 32 c.val = _ from h)

/-- The same with the word column built in place from the rows' class words. -/
private theorem overwrite_apply (v6 : IVec S1024x1 32) (d dec : BitVec 32) (prev : FVec Ideal S1024x722 .f32)
    (r : Fin 1024) (c : Fin 722) :
    select (cmpi .eq lanes (nbr v6 d)) (broadcast S1024x722 (Scalar.ofBits (F := Ideal) .f32 dec)) prev (ix2 r c)
      = if Cert.Spec.hit (v6 (ix2 r 0)) d c then Ideal.ofBits .f32 dec else prev (ix2 r c) :=
  overwrite_word_apply (nbr v6 d) (v6 (ix2 r 0)) d dec prev r c (nbr_apply v6 d r c)

/-! ## The weight chain -/

/-- The first overwrite (distance +3) of the zero row. -/
private theorem pay6_apply (x1 : Vec Ideal S1x1024x1 .i32) (r : Fin 1024) (c : Fin 722) :
    k0_pay6 (F := Ideal) x1 (ix2 r c)
      = if Cert.Spec.hit (k0_pay4 (F := Ideal) x1 (ix2 r 0)) 3#32 c then Cert.Spec.dec3 else Cert.Spec.zeroW :=
  overwrite_apply (k0_pay4 (F := Ideal) x1) 3#32 0x3E0A9555#32
    (broadcast S1024x722 (Scalar.ofBits (F := Ideal) .f32 0x00000000#32)) r c

/-- The word column of the second overwrite (distance −3). -/
private theorem pay7_apply (x1 : Vec Ideal S1x1024x1 .i32) (r : Fin 1024) (c : Fin 722) :
    k0_pay7 (F := Ideal) x1 (ix2 r c)
      = Cert.Spec.clampC (IntOp.addi (k0_pay4 (F := Ideal) x1 (ix2 r 0)) 4294967293#32) :=
  nbr_apply (k0_pay4 (F := Ideal) x1) 4294967293#32 r c

/-- Overwrites two to six (distances −3, +2, −2, +1, −1) over a row `v30`, the word column of the first of them
    given as `v37`: the last overwrite is tested first. -/
private theorem pay8_apply (v6 : IVec S1024x1 32) (v30 : FVec Ideal S1024x722 .f32) (v37 : IVec S1024x722 32)
    (r : Fin 1024) (c : Fin 722)
    (hv : v37 (ix2 r c) = Cert.Spec.clampC (IntOp.addi (v6 (ix2 r 0)) 4294967293#32)) :
    k0_pay8 v6 lanes v30 v37 (ix2 r c)
      = if Cert.Spec.hit (v6 (ix2 r 0)) 4294967295#32 c then Cert.Spec.dec1 else
        if Cert.Spec.hit (v6 (ix2 r 0)) 1#32 c then Cert.Spec.dec1 else
        if Cert.Spec.hit (v6 (ix2 r 0)) 4294967294#32 c then Cert.Spec.dec2 else
        if Cert.Spec.hit (v6 (ix2 r 0)) 2#32 c then Cert.Spec.dec2 else
        if Cert.Spec.hit (v6 (ix2 r 0)) 4294967293#32 c then Cert.Spec.dec3 else v30 (ix2 r c) := by
  refine (overwrite_apply v6 4294967295#32 0x3F1B4598#32 _ r c).trans (ite_else ?_)
  refine (overwrite_apply v6 1#32 0x3F1B4598#32 _ r c).trans (ite_else ?_)
  refine (overwrite_apply v6 4294967294#32 0x3EBC5AB2#32 _ r c).trans (ite_else ?_)
  refine (overwrite_apply v6 2#32 0x3EBC5AB2#32 _ r c).trans (ite_else ?_)
  exact overwrite_word_apply v37 (v6 (ix2 r 0)) 4294967293#32 0x3E0A9555#32 v30 r c hv

/-- The weight row after the last two overwrites, both at the rows' own class (distance 0), of a row `v80`. -/
private abbrev wlast (v6 : IVec S1024x1 32) (v80 : FVec Ideal S1024x722 .f32) : FVec Ideal S1024x722 .f32 :=
  select (cmpi .eq lanes (nbr v6 0#32)) (broadcast S1024x722 (Scalar.ofBits (F := Ideal) .f32 0x3F475F7D#32))
    (select (cmpi .eq lanes (nbr v6 0#32)) (broadcast S1024x722 (Scalar.ofBits (F := Ideal) .f32 0x3F475F7D#32)) v80)

/-- The finished weight row at `(r, c)` is the smoothed one-hot weight of class `c` for row `r`'s class word. -/
private theorem weights_apply (x1 : Vec Ideal S1x1024x1 .i32) (r : Fin 1024) (c : Fin 722) :
    wlast (k0_pay4 (F := Ideal) x1) (k0_pay8 (k0_pay4 (F := Ideal) x1) lanes (k0_pay6 x1) (k0_pay7 x1)) (ix2 r c)
      = Cert.Spec.wt (x1 (ix3 0 r 0)) c := by
  have e : wlast (k0_pay4 (F := Ideal) x1) (k0_pay8 (k0_pay4 (F := Ideal) x1) lanes (k0_pay6 x1) (k0_pay7 x1)) (ix2 r c)
      = Cert.Spec.wt (k0_pay4 (F := Ideal) x1 (ix2 r 0)) c := by
    unfold Cert.Spec.wt
    refine (overwrite_apply _ 0#32 0x3F475F7D#32 _ r c).trans (ite_else ?_)
    refine (overwrite_apply _ 0#32 0x3F475F7D#32 _ r c).trans (ite_else ?_)
    refine (pay8_apply _ _ _ r c (pay7_apply x1 r c)).trans ?_
    exact ite_else (ite_else (ite_else (ite_else (ite_else (pay6_apply x1 r c)))))
  rw [e, pay4_apply]

/-! ## The rows' losses and their sum -/

/-- The index a sum over the classes visits for row `r` at class `k` is `(r, k)`. -/
private theorem lift_row (r : Fin 1024) (k : Fin 722) :
    reduces_S1024x722_S1024.lift (ix1 r) k = ix2 r k := by
  funext a
  match a with
  | ⟨0, _⟩ => rfl
  | ⟨1, _⟩ => rfl

/-- The sum over the classes of a block at row `r`. -/
private theorem rowSum_apply (v : FVec Ideal S1024x722 .f32) (r : Fin 1024) :
    multiReduction (F := Ideal) .add [1] S1024 v 0x00000000#32 reduces_S1024x722_S1024 (.inl rfl) rfl (ix1 r)
      = ∑ k : Fin 722, v (ix2 r k) := by
  refine (Ideal.multiReduction_add_single v 0x00000000#32 reduces_S1024x722_S1024 (.inl rfl) rfl (ix1 r)).trans ?_
  exact Finset.sum_congr rfl fun k _ => congrArg v (lift_row r k)

/-- The zero pattern less a vector of row values kept as a column: at `(r, u)` the negated value of row `r`. -/
private theorem negcol_apply (w : FVec Ideal S1024 .f32) (r : Fin 1024) (u : Fin 1) :
    subf (broadcast S1024x1 (Scalar.ofBits (F := Ideal) .f32 0x00000000#32))
        (shapeCast S1024x1 w shapeCasts_S1024_S1024x1) (ix2 r u) = -(w (ix1 r)) := by
  refine (subf_apply _ _ _).trans ?_
  show Ideal.ofBits .f32 0x00000000#32 - shapeCast S1024x1 w shapeCasts_S1024_S1024x1 (ix2 r u) = _
  rw [Ideal.ofBits_zero_f32, zero_sub, Cert.Columns.shapeCast_a_a1_apply]

/-- The index the sum over the rows of a column visits at row `k` is `(k, 0)`. -/
private theorem lift_col (k : Fin 1024) :
    reduces_S1024x1_S1.lift (ix1 (0 : Fin 1)) k = ix2 k (0 : Fin 1) := by
  funext a
  match a with
  | ⟨0, _⟩ => rfl
  | ⟨1, _⟩ => rfl

/-- The sum over the 1024 rows of a column. -/
private theorem blockSum_apply (col : FVec Ideal S1024x1 .f32) :
    multiReduction (F := Ideal) .add [0] S1 col 0x00000000#32 reduces_S1024x1_S1 (.inl rfl) rfl (ix1 (0 : Fin 1))
      = ∑ r : Fin 1024, col (ix2 r (0 : Fin 1)) := by
  refine (Ideal.multiReduction_add_single col 0x00000000#32 reduces_S1024x1_S1 (.inl rfl) rfl (ix1 (0 : Fin 1))).trans ?_
  exact Finset.sum_congr rfl fun k _ => congrArg col (lift_col k)

/-! ## The corner of the accumulator -/

/-- A one-element vector cast to `[1, 1]` and spread over the `[8, 128]` accumulator reads that element everywhere. -/
private theorem spread_apply {α : Type} (z : (S1 : Shape).Idx → α) (p : Fin 8) (q : Fin 128) :
    broadcastTo S8x128 (shapeCast S1x1 (shapeCast S1x1 z shapeCasts_S1_S1x1) shapeCasts_S1x1_S1x1)
        broadcasts_S1x1_S8x128 (ix2 p q) = z (ix1 (0 : Fin 1)) := by
  rw [shapeCast_self]
  refine (broadcastTo_apply _ broadcasts_S1x1_S8x128 (ix2 p q) (ix2 (0 : Fin 1) (0 : Fin 1)) fun a => ?_).trans
    (Cert.Columns.shapeCast_a_a1_apply z _ 0 0)
  match a with
  | ⟨0, _⟩ =>
    show (0 : ℕ) = if (1 : ℕ) = 1 then 0 else p.val
    rw [if_pos rfl]
  | ⟨1, _⟩ =>
    show (0 : ℕ) = if (1 : ℕ) = 1 then 0 else q.val
    rw [if_pos rfl]

/-- The word of a number below 2³² is the zero word exactly when the number is zero. -/
private theorem cmpi_ofNat_zero (n : ℕ) (hn : n < 2 ^ 32) :
    IntOp.cmpi .eq (BitVec.ofNat 32 n) 0#32 = if n = 0 then 1#1 else 0#1 := by
  by_cases h : n = 0
  · subst h; rfl
  · rw [if_neg h]
    have hne : BitVec.ofNat 32 n ≠ 0#32 := by
      intro e
      have e' := congrArg BitVec.toNat e
      rw [BitVec.toNat_ofNat, Nat.mod_eq_of_lt hn] at e'
      exact h e'
    have hb : (BitVec.ofNat 32 n == 0#32) = false := beq_eq_false_iff_ne.mpr hne
    simp [IntOp.cmpi, hb]

/-- The select on "row coordinate 0 and lane coordinate 0" is the `if` on the corner. -/
private theorem corner_apply (A B : FVec Ideal S8x128 .f32) (p : Fin 8) (q : Fin 128) :
    select (andi (cmpi .eq (iota .tc S8x128 32 [0] iota_S8x128_d0_w32) (broadcast S8x128 0#32))
                 (cmpi .eq (iota .tc S8x128 32 [1] iota_S8x128_d1_w32) (broadcast S8x128 0#32))) A B (ix2 p q)
      = if p.val = 0 ∧ q.val = 0 then A (ix2 p q) else B (ix2 p q) := by
  have h0 : iota .tc S8x128 32 [0] iota_S8x128_d0_w32 (ix2 p q) = BitVec.ofNat 32 p.val :=
    iota_single_apply .tc S8x128 32 0 iota_S8x128_d0_w32 (ix2 p q)
  have h1 : iota .tc S8x128 32 [1] iota_S8x128_d1_w32 (ix2 p q) = BitVec.ofNat 32 q.val :=
    iota_single_apply .tc S8x128 32 1 iota_S8x128_d1_w32 (ix2 p q)
  refine (select_apply _ _ _ _).trans ?_
  show Scalar.select (IntOp.andi (IntOp.cmpi .eq (iota .tc S8x128 32 [0] iota_S8x128_d0_w32 (ix2 p q)) 0#32)
      (IntOp.cmpi .eq (iota .tc S8x128 32 [1] iota_S8x128_d1_w32 (ix2 p q)) 0#32)) (A (ix2 p q)) (B (ix2 p q)) = _
  rw [h0, h1, cmpi_ofNat_zero p.val (by have := p.isLt; omega), cmpi_ofNat_zero q.val (by have := q.isLt; omega)]
  by_cases hp : p.val = 0 <;> by_cases hq : q.val = 0 <;> simp [hp, hq, Scalar.select, IntOp.andi]

/-! ## The accumulation -/

/-- The last payload at `(p, q)`: the accumulator found plus, at the corner, the sum over the rows of the negated
    sums over the classes of log-probability times weight, and the zero pattern elsewhere. -/
private theorem pay9_apply (v6 : IVec S1024x1 32) (v18 v80 : FVec Ideal S1024x722 .f32) (acc : Vec Ideal S8x128 .f32)
    (p : Fin 8) (q : Fin 128) :
    k0_pay9 v6 v18 lanes v80 acc (ix2 p q)
      = acc (ix2 p q) + (if p.val = 0 ∧ q.val = 0 then
          ∑ r : Fin 1024, -(∑ c : Fin 722, v18 (ix2 r c) * wlast v6 v80 (ix2 r c)) else Cert.Spec.zeroW) := by
  refine (addf_apply _ _ _).trans (congrArg (acc (ix2 p q) + ·) ?_)
  refine (corner_apply _ _ p q).trans ?_
  by_cases h : p.val = 0 ∧ q.val = 0
  · rw [if_pos h, if_pos h]
    refine (spread_apply _ p q).trans ?_
    refine (blockSum_apply _).trans ?_
    refine Finset.sum_congr rfl fun r _ => ?_
    refine (negcol_apply _ r 0).trans ?_
    exact congrArg Neg.neg (rowSum_apply _ r)
  · rw [if_neg h, if_neg h]
    rfl

/-- At the extended reals the step adds the block's loss at the corner and the zero pattern elsewhere. -/
theorem step_apply (x0 : Vec Ideal S1x1024x722 .f32) (x1 : Vec Ideal S1x1024x1 .i32) (acc : Vec Ideal S8x128 .f32)
    (p : Fin 8) (q : Fin 128) :
    step x0 x1 acc (ix2 p q)
      = acc (ix2 p q) + (if p.val = 0 ∧ q.val = 0 then
          Cert.Spec.blockLoss (fun r c => x0 (ix3 0 r c)) (fun r => x1 (ix3 0 r 0)) else Cert.Spec.zeroW) := by
  unfold step k0_pay1
  rw [shapeCast_self]
  refine (pay9_apply _ _ _ acc p q).trans (congrArg (acc (ix2 p q) + ·) ?_)
  by_cases h : p.val = 0 ∧ q.val = 0
  · rw [if_pos h, if_pos h]
    refine Finset.sum_congr rfl fun r _ => ?_
    refine congrArg Neg.neg (Finset.sum_congr rfl fun c _ => ?_)
    rw [pay5_apply, weights_apply]
  · rw [if_neg h, if_neg h]

end Cert.KernelIdeal.KPay

end
-- ==== Proof.KAcc.lean ====
/-
  The accumulator point by point. The 64 grid points are 16 batch rows of 4 blocks; the accumulator is reset at a row's
  first block and holds, after block k of a row, the losses of the row's blocks 0 … k at the corner and zero elsewhere;
  the row's last point copies it into the output block.
-/
import proofs.«415570_j35390530519630_1_alg».proof.Proof.Gen.KernelIdeal.Frame
import proofs.«415570_j35390530519630_1_alg».proof.Proof.KPay
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.KAcc

open Cert.KernelIdeal Cert.KernelIdeal.Gen Idealize.ShloMosaic Idealize.ShloMosaic.ValueIdx Idealize.SL.Sem

variable (m : (ℓ : Loc nD τ sig) → Buf (Elt Ideal) ℓ)

/-- The block of logits grid point `t` loads, at its literal type. -/
abbrev xblk (c : Dev nD) (t : Fin cfg0.N) : Vec Ideal S1x1024x722 .f32 := iblk m c 0 t
/-- The block of class words grid point `t` loads, at its literal type. -/
abbrev tblk (c : Dev nD) (t : Fin cfg0.N) : Vec Ideal S1x1024x1 .i32 := iblk m c 1 t

/-- The loss of the block grid point `n` reads (zero for an `n` beyond the grid). -/
def BL (c : Dev nD) (n : ℕ) : EReal :=
  if h : n < cfg0.N then
    Cert.Spec.blockLoss (fun r k => xblk m c ⟨n, h⟩ (ix3 0 r k)) (fun r => tblk m c ⟨n, h⟩ (ix3 0 r 0))
  else 0

/-- The zero offsets of a rank-2 and of a rank-3 whole-buffer rectangle, as constant functions. -/
private theorem hz : (![0, 0] : Fin 2 → Nat) = fun _ => 0 := funext fun a => by fin_cases a <;> rfl
private theorem hz3 : (![0, 0, 0] : Fin 3 → Nat) = fun _ => 0 := funext fun a => by fin_cases a <;> rfl

/-- What each case of the body leaves in the accumulator (and, at a row's last point, in the output block) is the step. -/
theorem sout_A (c : Dev nD) (i : grid0.Coords) (arg2 : Memref sig .tc .vmem S1x1024x722 .f32) (harg2 : arg2.IsWhole) (arg3 : Memref sig .tc .vmem S1x1024x1 .i32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i)
    (x0 : Vec Ideal S1x1024x722 .f32) (x1 : Vec Ideal S1x1024x1 .i32) :
    sout0_A_0 c i arg2 harg2 arg3 harg3 arg4 harg4 arg5 harg5 hc0 hc1 x0 x1 = KPay.step x0 x1 (k0_pay3 (F := Ideal)) := by
  -- two whole-buffer stores, the reset first: the later one stands, and its load of the accumulator reads the reset
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128) hz, View.readCov_unit_zero (S := S8x128) _ hz]
  unfold KPay.step
  simp only [View.readAt_eq_ld, harg2.read_unread, harg3.read_unread, harg5.read_unread,
    View.ld_unit_zero (S := S8x128) hz, View.ld_unit_zero (S := S1x1024x722) hz3, View.ld_unit_zero (S := S1x1024x1) hz3]

theorem sout_B (c : Dev nD) (i : grid0.Coords) (arg2 : Memref sig .tc .vmem S1x1024x722 .f32) (harg2 : arg2.IsWhole) (arg3 : Memref sig .tc .vmem S1x1024x1 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i)
    (x0 : Vec Ideal S1x1024x722 .f32) (x1 : Vec Ideal S1x1024x1 .i32) (xs0 : Vec Ideal S8x128 .f32) :
    sout0_B_0 c i arg2 harg2 arg3 harg3 arg4 harg4 arg5 harg5 hc0 hc1 x0 x1 xs0 = KPay.step x0 x1 xs0 := by
  -- one whole-buffer store; its loads read the two blocks and the accumulator found
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S8x128) hz]
  unfold KPay.step
  simp only [View.readAt_eq_ld, harg2.read_unread, harg3.read_unread, harg5.read_unread,
    View.ld_unit_zero (S := S8x128) hz, View.ld_unit_zero (S := S1x1024x722) hz3, View.ld_unit_zero (S := S1x1024x1) hz3]

theorem sout_C (c : Dev nD) (i : grid0.Coords) (arg2 : Memref sig .tc .vmem S1x1024x722 .f32) (harg2 : arg2.IsWhole) (arg3 : Memref sig .tc .vmem S1x1024x1 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec Ideal S1x1024x722 .f32) (x1 : Vec Ideal S1x1024x1 .i32) (xs0 : Vec Ideal S8x128 .f32) :
    sout0_C_0 c i arg2 harg2 arg3 harg3 arg4 harg4 arg5 harg5 hc0 hc1 x0 x1 xs0 = KPay.step x0 x1 xs0 := by
  -- the accumulator's one whole-buffer store, as at the middle points
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S8x128) hz]
  unfold KPay.step
  simp only [View.readAt_eq_ld, harg2.read_unread, harg3.read_unread, harg5.read_unread,
    View.ld_unit_zero (S := S8x128) hz, View.ld_unit_zero (S := S1x1024x722) hz3, View.ld_unit_zero (S := S1x1024x1) hz3]

theorem out_C (c : Dev nD) (i : grid0.Coords) (arg2 : Memref sig .tc .vmem S1x1024x722 .f32) (harg2 : arg2.IsWhole) (arg3 : Memref sig .tc .vmem S1x1024x1 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec Ideal S1x1024x722 .f32) (x1 : Vec Ideal S1x1024x1 .i32) (xs0 : Vec Ideal S8x128 .f32) :
    out0_C_2 c i arg2 harg2 arg3 harg3 arg4 harg4 arg5 harg5 hc0 hc1 x0 x1 xs0 = k0_pay2 (KPay.step x0 x1 xs0) := by
  -- the output block's one whole-buffer store: the accumulator just stored, read back and cast to [1, 8, 128]
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x8x128) hz3, View.readCov_unit_zero (S := S8x128) _ hz]
  unfold KPay.step
  simp only [View.readAt_eq_ld, harg2.read_unread, harg3.read_unread, harg5.read_unread,
    View.ld_unit_zero (S := S8x128) hz, View.ld_unit_zero (S := S1x1024x722) hz3, View.ld_unit_zero (S := S1x1024x1) hz3]

/-- The reset block is zero at every index. -/
private theorem pay3_apply (p : Fin 8) (q : Fin 128) : (k0_pay3 (F := Ideal)) (ix2 p q) = (0 : EReal) := by
  -- a broadcast constant read through a cast is the constant, whatever the index
  exact Ideal.ofBits_zero_f32

/-- The output block's cast [8, 128] → [1, 8, 128] reads (0, p, q) at (p, q). -/
private theorem pay2_apply (v : Vec Ideal S8x128 .f32) (p : Fin 8) (q : Fin 128) :
    k0_pay2 v (ix3 0 p q) = v (ix2 p q) :=
  shapeCast_ab_1ab_apply v shapeCasts_S8x128_S1x8x128 0 p q

/-- One point's step at grid point `t`, read at an index: the accumulator found plus, at the corner, the loss of the
    block the point reads (the zero pattern is the extended real zero). -/
private theorem step_at (c : Dev nD) (t : Fin cfg0.N) (acc : Vec Ideal S8x128 .f32) (p : Fin 8) (q : Fin 128) :
    KPay.step (xblk m c t) (tblk m c t) acc (ix2 p q)
      = acc (ix2 p q) + (if p.val = 0 ∧ q.val = 0 then BL m c t.val else 0) := by
  refine (KPay.step_apply (xblk m c t) (tblk m c t) acc p q).trans ?_
  unfold BL
  rw [dif_pos t.isLt]
  simp only [Cert.Spec.zeroW, Ideal.ofBits_zero_f32]

/-- A row's first point: the accumulator is reset, so it leaves the point's own block loss at the corner. -/
private theorem scratch_A (c : Dev nD) (t : Fin cfg0.N) (h0 : t.val % 4 = 0) (h1 : ¬t.val % 4 = 3) (p : Fin 8) (q : Fin 128) :
    (outsAt0 m c t.val t.isLt).2 (ix2 p q)
      = if p.val = 0 ∧ q.val = 0 then ∑ j ∈ Finset.range (t.val % 4 + 1), BL m c (t.val - t.val % 4 + j) else 0 := by
  rw [outsAt0_A m c t h0 h1]
  dsimp only
  refine (congrFun (sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xblk m c t) (tblk m c t)) (ix2 p q)).trans ?_
  rw [step_at, pay3_apply, h0]
  by_cases hpq : p.val = 0 ∧ q.val = 0
  · rw [if_pos hpq, if_pos hpq, zero_add, Finset.sum_range_one, Nat.sub_zero, Nat.add_zero]
  · rw [if_neg hpq, if_neg hpq, add_zero]

/-- A later point of a row: one more block loss joins the sum the point before left (the sum over `range (k + 1)`
    is the sum over `range k` plus the term at `k`, and `t - t % 4 + t % 4 = t`). -/
private theorem scratch_succ (c : Dev nD) (t : Fin cfg0.N) (h0 : ¬t.val % 4 = 0) (p : Fin 8) (q : Fin 128)
    (acc : Vec Ideal S8x128 .f32)
    (hacc : acc (ix2 p q) = if p.val = 0 ∧ q.val = 0 then
        ∑ j ∈ Finset.range ((t.val - 1) % 4 + 1), BL m c (t.val - 1 - (t.val - 1) % 4 + j) else 0) :
    KPay.step (xblk m c t) (tblk m c t) acc (ix2 p q)
      = if p.val = 0 ∧ q.val = 0 then ∑ j ∈ Finset.range (t.val % 4 + 1), BL m c (t.val - t.val % 4 + j) else 0 := by
  rw [step_at, hacc]
  by_cases hpq : p.val = 0 ∧ q.val = 0
  · rw [if_pos hpq, if_pos hpq, if_pos hpq]
    have e1 : (t.val - 1) % 4 + 1 = t.val % 4 := by omega
    have e2 : t.val - 1 - (t.val - 1) % 4 = t.val - t.val % 4 := by omega
    have e3 : t.val - t.val % 4 + t.val % 4 = t.val := by omega
    rw [e1, e2, Finset.sum_range_succ, e3]
  · rw [if_neg hpq, if_neg hpq, if_neg hpq, add_zero]

/-- The invariant, by induction on the point's position. -/
private theorem scratch_nat (c : Dev nD) (p : Fin 8) (q : Fin 128) : ∀ (n : ℕ) (t : Fin cfg0.N), t.val = n →
    (outsAt0 m c t.val t.isLt).2 (ix2 p q)
      = if p.val = 0 ∧ q.val = 0 then ∑ j ∈ Finset.range (t.val % 4 + 1), BL m c (t.val - t.val % 4 + j) else 0 := by
  intro n
  induction n with
  | zero =>
    intro t ht
    exact scratch_A m c t (by omega) (by omega) p q
  | succ k ih =>
    intro t ht
    by_cases h0 : t.val % 4 = 0
    · exact scratch_A m c t h0 (by omega) p q
    · have hlt : t.val - 1 < cfg0.N := Nat.lt_of_le_of_lt (Nat.sub_le _ _) t.isLt
      have ih' := ih ⟨t.val - 1, hlt⟩ (by show t.val - 1 = k; omega)
      dsimp only at ih'
      by_cases h1 : t.val % 4 = 3
      · rw [outsAt0_C m c t h0 h1]
        dsimp only
        refine (congrFun (sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (tblk m c t) (outsAt0 m c (t.val - 1) hlt).2) (ix2 p q)).trans ?_
        exact scratch_succ m c t h0 p q _ ih'
      · rw [outsAt0_B m c t h0 h1]
        dsimp only
        refine (congrFun (sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xblk m c t) (tblk m c t) (outsAt0 m c (t.val - 1) hlt).2) (ix2 p q)).trans ?_
        exact scratch_succ m c t h0 p q _ ih'

/-- After point `t` the accumulator holds, at the corner, the losses of its row's blocks up to `t`'s, and zero elsewhere. -/
theorem scratch_at (c : Dev nD) (t : Fin cfg0.N) (p : Fin 8) (q : Fin 128) :
    (outsAt0 m c t.val t.isLt).2 (ix2 p q)
      = if p.val = 0 ∧ q.val = 0 then ∑ j ∈ Finset.range (t.val % 4 + 1), BL m c (t.val - t.val % 4 + j) else 0 :=
  scratch_nat m c p q t.val t rfl

/-- At a row's last point the output block is the accumulator: the row's four block losses at the corner. -/
theorem out_at (c : Dev nD) (t : Fin cfg0.N) (h3 : t.val % 4 = 3) (p : Fin 8) (q : Fin 128) :
    (outsAt0 m c t.val t.isLt).1 (ix3 0 p q)
      = if p.val = 0 ∧ q.val = 0 then ∑ j ∈ Finset.range 4, BL m c (t.val - 3 + j) else 0 := by
  have h0 : ¬t.val % 4 = 0 := by omega
  have hlt : t.val - 1 < cfg0.N := Nat.lt_of_le_of_lt (Nat.sub_le _ _) t.isLt
  -- the accumulator after the point, and the output block, are both the point's step over what the point before left
  have e2 : (outsAt0 m c t.val t.isLt).2 (ix2 p q)
      = KPay.step (xblk m c t) (tblk m c t) (outsAt0 m c (t.val - 1) hlt).2 (ix2 p q) := by
    rw [outsAt0_C m c t h0 h3]
    dsimp only
    exact congrFun (sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (xblk m c t) (tblk m c t) (outsAt0 m c (t.val - 1) hlt).2) (ix2 p q)
  have e1 : (outsAt0 m c t.val t.isLt).1 (ix3 0 p q)
      = KPay.step (xblk m c t) (tblk m c t) (outsAt0 m c (t.val - 1) hlt).2 (ix2 p q) := by
    rw [outsAt0_C m c t h0 h3]
    dsimp only
    exact (congrFun (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (xblk m c t) (tblk m c t) (outsAt0 m c (t.val - 1) hlt).2) (ix3 0 p q)).trans (pay2_apply _ p q)
  rw [e1, ← e2, scratch_at m c t p q, h3]

end Cert.KernelIdeal.KAcc

end
-- ==== Proof.SumLaw.lean ====
/-
  Regrouping the batch's sum: addition on the extended reals is commutative and associative, so the sum over
  the 16 × 4096 frames may be taken block by block (4 blocks of 1024 frames per batch row), and a sum over a
  [16, 8, 128] array that is zero off the corner (·, 0, 0) is the sum of its corners.
-/
import proofs.«415570_j35390530519630_1_alg».proof.Proof.Spec

set_option maxRecDepth 16384

noncomputable section

namespace Cert.Spec

open Idealize.ShloMosaic Idealize.ShloMosaic.ValueIdx

/-- The 4096 frames of a batch row as 4 blocks of 1024: the pair (block `k`, offset `r`) is frame `1024·k + r`,
    and a frame `t` is the pair (`t / 1024`, `t % 1024`). -/
private def blockEquiv : Fin 4 × Fin 1024 ≃ Fin 4096 where
  toFun p := ⟨p.1.val * 1024 + p.2.val, by omega⟩
  invFun t := (⟨t.val / 1024, by omega⟩, ⟨t.val % 1024, by omega⟩)
  left_inv p := by
    obtain ⟨k, r⟩ := p
    refine Prod.ext (Fin.ext ?_) (Fin.ext ?_)
    · show (k.val * 1024 + r.val) / 1024 = k.val
      omega
    · show (k.val * 1024 + r.val) % 1024 = r.val
      omega
  right_inv t := by
    refine Fin.ext ?_
    show t.val / 1024 * 1024 + t.val % 1024 = t.val
    omega

/-- Frame `t = 1024·k + r` of a batch row: the 4096 frames are 4 blocks of 1024. -/
theorem sum_frames_by_blocks (f : Fin 4096 → EReal) :
    ∑ t : Fin 4096, f t = ∑ k : Fin 4, ∑ r : Fin 1024, f ⟨k.val * 1024 + r.val, by omega⟩ := by
  -- re-index the sum along the bijection (k, r) ↦ 1024·k + r, then split the sum over pairs into the double sum
  rw [← Equiv.sum_comp blockEquiv f, Fintype.sum_prod_type]
  rfl

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A [16, 8, 128] array that holds `g b` at (b, 0, 0) and zero elsewhere sums to `Σ_b g b`. -/
theorem sum_corner (g : Fin 16 → EReal) :
    ∑ i : (⟨3, ![16, 8, 128]⟩ : Shape).Idx, (if (i 1).val = 0 ∧ (i 2).val = 0 then g (i 0) else 0) = ∑ b : Fin 16, g b := by
  -- by coordinates: Σ_b Σ_s Σ_l (if s = 0 ∧ l = 0 then g b else 0)
  refine (sum_idx3 _).trans (Finset.sum_congr rfl fun b _ => ?_)
  show ∑ s : Fin 8, ∑ l : Fin 128, (if s.val = 0 ∧ l.val = 0 then g b else 0) = g b
  -- only the sublane s = 0 contributes, and on it only the lane l = 0
  rw [Finset.sum_eq_single (0 : Fin 8), Finset.sum_eq_single (0 : Fin 128)]
  · exact if_pos ⟨rfl, rfl⟩
  · intro l _ hl
    exact if_neg fun h => hl (Fin.ext h.2)
  · intro h; exact absurd (Finset.mem_univ _) h
  · intro s _ hs
    exact Finset.sum_eq_zero fun l _ => if_neg fun h => hs (Fin.ext h.1)
  · intro h; exact absurd (Finset.mem_univ _) h

/-- A sum over the [16, 4096] index type is the double sum over its coordinates. -/
theorem sum_frames (f : Fin 16 → Fin 4096 → EReal) :
    ∑ i : (⟨2, ![16, 4096]⟩ : Shape).Idx, f (i 0) (i 1) = ∑ b : Fin 16, ∑ t : Fin 4096, f b t :=
  sum_idx2 (n0 := 16) (n1 := 4096) fun i => f (i 0) (i 1)

end Cert.Spec

end
-- ==== Proof.KArr.lean ====
/-
  From the blocks to the arrays and to the result: block (b, k) of the logits is rows 1024·k … 1024·k + 1023 of batch
  row b, the class words reach the kernel through a reshape [16, 4096] → [16, 4096, 1]; the output array holds each
  batch row's loss at (b, 0, 0) and zero elsewhere; the host sums it and divides by 65536.
-/
import proofs.«415570_j35390530519630_1_alg».proof.Proof.KAcc
import proofs.«415570_j35390530519630_1_alg».proof.Proof.SumLaw
import Idealize.ShloMosaic.Lib.Pipeline.Value
import Idealize.ShloMosaic.Lib.Pipeline.FrameSuffix
import Idealize.ShloMosaic.Lib.Tactic
import Idealize.ShloMosaic.PureOps.Ideal.Laws

set_option maxRecDepth 16384

noncomputable section

namespace Cert.KernelIdeal.KArr

open Cert.KernelIdeal Cert.KernelIdeal.Gen Idealize.ShloMosaic Idealize.ShloMosaic.ValueIdx Idealize.SL.Sem

variable (m : (ℓ : Loc nD τ sig) → Buf (Elt Ideal) ℓ) (ρ : Dev nD → PrngReg)

/-! ## Where the blocks lie -/

/-- The block indices of the three windows at grid point `t = 4·b + k`: the logits' and the class words' block is
    (b, k, 0), the output's is (b, 0, 0). -/
private theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- Row `r`, class `j` of the logits' block at point `t` is the argument at batch row `t / 4`, frame
    `1024·(t % 4) + r`, class `j`: a block's coordinate is its index times its extent plus the coordinate inside it. -/
private theorem xblk_apply (c : Dev nD) (t : Fin cfg0.N) (r : Fin 1024) (j : Fin 722) (i : S16x4096x722.Idx)
    (h0 : (i 0).val = t.val / 4) (h1 : (i 1).val = (t.val % 4) * 1024 + r.val) (h2 : (i 2).val = j.val) :
    KAcc.xblk m c t (ix3 0 r j) = (m ((c.tc : Thread nD τ).loc main_arg0)) i := by
  obtain ⟨e0, e1, e2, -⟩ := idx_facts t
  unfold KAcc.xblk iblk
  rw [View.read_apply]
  show V m c main_arg0 _ = _
  rw [V_main_arg0]
  congr 1
  funext a
  apply Fin.ext
  match a with
  | ⟨0, _⟩ => show win0_0.index t (0 : Fin 3) * 1 + 1 * 0 = (i 0).val; omega
  | ⟨1, _⟩ => show win0_0.index t (1 : Fin 3) * 1024 + 1 * r.val = (i 1).val; omega
  | ⟨2, _⟩ => show win0_0.index t (2 : Fin 3) * 722 + 1 * j.val = (i 2).val; omega

/-- The class words reach the region through a reshape that adds a trailing unit axis. -/
private theorem V_main_v0 (c : Dev nD) :
    (V m c main_v0 : S16x4096x1.Idx → BitVec 32)
      = shapeCast S16x4096x1 (m ((c.tc : Thread nD τ).loc main_arg1) : S16x4096.Idx → BitVec 32) Facts₀.shapeCasts_S16x4096_S16x4096x1 := by
  show StableHlo.after hostOps0 (fun b => m (c, b)) (Proc.devRef .tc main_v0) = _
  after_results
  rfl

/-- Row `r` of the class words' block at point `t` is the argument at batch row `t / 4`, frame `1024·(t % 4) + r`:
    the reshape keeps the row-major position, and (b, f, 0) of [16, 4096, 1] has the position of (b, f) of [16, 4096]. -/
private theorem tblk_apply (c : Dev nD) (t : Fin cfg0.N) (r : Fin 1024) (i : S16x4096.Idx)
    (h0 : (i 0).val = t.val / 4) (h1 : (i 1).val = (t.val % 4) * 1024 + r.val) :
    KAcc.tblk m c t (ix3 0 r 0) = (m ((c.tc : Thread nD τ).loc main_arg1)) i := by
  obtain ⟨-, -, -, e0, e1, e2, -⟩ := idx_facts t
  unfold KAcc.tblk iblk
  rw [View.read_apply]
  show V m c main_v0 _ = _
  rw [V_main_v0]
  refine shapeCast_apply _ _ _ i ?_
  rw [Shape.rowMajor_val_two, Shape.rowMajor_val_three]
  show (i 0).val * 4096 + (i 1).val
    = ((win0_1.index t (0 : Fin 3) * 1 + 1 * 0) * 4096 + (win0_1.index t (1 : Fin 3) * 1024 + 1 * r.val)) * 1
      + (win0_1.index t (2 : Fin 3) * 1 + 1 * 0)
  omega

/-- The loss of the block grid point `n = 4·b + k` reads, over the argument arrays as launched. -/
theorem BL_eq (c : Dev nD) (b : Fin 16) (k : Fin 4) :
    KAcc.BL m c (4 * b.val + k.val)
      = Cert.Spec.blockLoss
          (fun r j => (m ((c.tc : Thread nD τ).loc main_arg0)) (ix3 b (⟨k.val * 1024 + r.val, by omega⟩ : Fin 4096) j))
          (fun r => (m ((c.tc : Thread nD τ).loc main_arg1)) (ix2 b (⟨k.val * 1024 + r.val, by omega⟩ : Fin 4096))) := by
  have hlt : 4 * b.val + k.val < cfg0.N := lt_of_lt_of_eq (by omega) (N_0).symm
  unfold KAcc.BL
  rw [dif_pos hlt]
  congr 1
  · funext r j
    exact xblk_apply m c ⟨_, hlt⟩ r j _ (by show b.val = (4 * b.val + k.val) / 4; omega)
      (by show k.val * 1024 + r.val = (4 * b.val + k.val) % 4 * 1024 + r.val; omega) rfl
  · funext r
    exact tblk_apply m c ⟨_, hlt⟩ r _ (by show b.val = (4 * b.val + k.val) / 4; omega)
      (by show k.val * 1024 + r.val = (4 * b.val + k.val) % 4 * 1024 + r.val; omega)

/-! ## The output array -/

/-- The output array as one function of its index: each batch row's four block losses at (b, 0, 0), zero elsewhere. -/
private def OUT (c : Dev nD) : S16x8x128.Idx → EReal := fun i =>
  if (i 1).val = 0 ∧ (i 2).val = 0 then ∑ k : Fin 4, KAcc.BL m c (4 * (i 0).val + k.val) else 0

/-- What a row's last point `t = 4·b + 3` writes back is block (b, 0, 0) of `OUT`: the points `t − 3 … t` are the
    row's four blocks `4·b … 4·b + 3`. -/
private theorem flushed_eq (c : Dev nD) (t : Fin cfg0.N) (hf : (cfg0.win 2).flush t = true) :
    (dats m 0 c).flushed 2 t = ((cfg0.win 2).blk t).view.read (Elt Ideal) (OUT m c) := by
  have h3 : t.val % 4 = 3 := (flush0_2 t).mp hf
  obtain ⟨-, -, -, -, -, -, e0, e1, e2⟩ := idx_facts t
  show (cfg0.win 2).cut (grid0.coords t) ((dats m 0 c).after 2 t) = _
  rw [after0_2]
  funext j
  rw [View.read_apply]
  show (outsAt0 m c t.val t.isLt).1 j = OUT m c (((cfg0.win 2).blk t).view.emb j)
  obtain ⟨a, p, q, rfl⟩ : ∃ (a : Fin 1) (p : Fin 8) (q : Fin 128), j = ix3 a p q := ⟨j 0, j 1, j 2, eq_ix3 j⟩
  obtain rfl : a = 0 := Subsingleton.elim _ _
  rw [KAcc.out_at m c t h3 p q]
  unfold OUT
  have a0 : ((((cfg0.win 2).blk t).view.emb (ix3 0 p q)) 0).val = t.val / 4 := by
    show win0_2.index t (0 : Fin 3) * 1 + 1 * 0 = _; omega
  have a1 : ((((cfg0.win 2).blk t).view.emb (ix3 0 p q)) 1).val = p.val := by
    show win0_2.index t (1 : Fin 3) * 8 + 1 * p.val = _; omega
  have a2 : ((((cfg0.win 2).blk t).view.emb (ix3 0 p q)) 2).val = q.val := by
    show win0_2.index t (2 : Fin 3) * 128 + 1 * q.val = _; omega
  rw [a0, a1, a2]
  by_cases hpq : p.val = 0 ∧ q.val = 0
  · rw [if_pos hpq, if_pos hpq, Finset.sum_range]
    refine Finset.sum_congr rfl fun k _ => ?_
    congr 1
    omega
  · rw [if_neg hpq, if_neg hpq]

/-- An index of the output array is in point `t`'s block iff each coordinate is in the block's range on its axis. -/
private theorem mem_blk (t : Fin cfg0.N) (i : S16x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v1).slice (win0_2.rect t)).set ↔ _
  rw [View.set_slice_whole, Rect.mem_set_unit]
  exact Iff.rfl

/-- Every index (b, p, q) of the output array is in the block the row's last point `4·b + 3` writes back. -/
private theorem cover (i : S16x8x128.Idx) :
    ∃ t : Fin cfg0.N, (cfg0.win 2).flush t = true ∧ i ∈ ((cfg0.win 2).blk t).view.set := by
  have hi0 : (i 0).val < 16 := (i 0).isLt
  have hi1 : (i 1).val < 8 := (i 1).isLt
  have hi2 : (i 2).val < 128 := (i 2).isLt
  have hlt : 4 * (i 0).val + 3 < cfg0.N := lt_of_lt_of_eq (by omega) (N_0).symm
  refine ⟨⟨4 * (i 0).val + 3, hlt⟩, (flush0_2 _).mpr (by show (4 * (i 0).val + 3) % 4 = 3; omega), ?_⟩
  obtain ⟨-, -, -, -, -, -, e0, e1, e2⟩ := idx_facts ⟨4 * (i 0).val + 3, hlt⟩
  have e0' : win0_2.index ⟨4 * (i 0).val + 3, hlt⟩ (0 : Fin 3) = (i 0).val := by
    rw [e0]; show (4 * (i 0).val + 3) / 4 = _; omega
  rw [mem_blk]
  intro a
  match a with
  | ⟨0, _⟩ => show win0_2.index ⟨4 * (i 0).val + 3, hlt⟩ (0 : Fin 3) * 1 ≤ (i 0).val ∧ (i 0).val < win0_2.index ⟨4 * (i 0).val + 3, hlt⟩ (0 : Fin 3) * 1 + 1; omega
  | ⟨1, _⟩ => show win0_2.index ⟨4 * (i 0).val + 3, hlt⟩ (1 : Fin 3) * 8 ≤ (i 1).val ∧ (i 1).val < win0_2.index ⟨4 * (i 0).val + 3, hlt⟩ (1 : Fin 3) * 8 + 8; omega
  | ⟨2, _⟩ => show win0_2.index ⟨4 * (i 0).val + 3, hlt⟩ (2 : Fin 3) * 128 ≤ (i 2).val ∧ (i 2).val < win0_2.index ⟨4 * (i 0).val + 3, hlt⟩ (2 : Fin 3) * 128 + 128; omega

/-- So the output array ends holding `OUT`: its sixteen blocks are written back once each and tile it. -/
private theorem arr_eq (c : Dev nD) : (dats m 0 c).arrAt 2 cfg0.N = OUT m c :=
  (dats m 0 c).arrAt_eq_of_cover 2 (OUT m c) (flushed_eq m c) cover

/-- The output array after the region. -/
theorem out_array (c : Dev nD) (b : Fin 16) (p : Fin 8) (q : Fin 128) :
    (dats m 0 c).arrAt 2 cfg0.N (ix3 b p q)
      = if p.val = 0 ∧ q.val = 0 then ∑ k : Fin 4, KAcc.BL m c (4 * b.val + k.val) else 0 :=
  congrFun (arr_eq m c) (ix3 b p q)

/-! ## The host's tail and the run -/

/-- The sum of the output array is the batch's total: the corners are the rows' four block losses, and a row's
    4096 frames are its four blocks of 1024 (sums on the extended reals regroup freely). -/
private theorem sum_OUT (c : Dev nD) :
    ∑ i : S16x8x128.Idx, OUT m c i
      = Cert.Spec.total (m ((c.tc : Thread nD τ).loc main_arg0)) (m ((c.tc : Thread nD τ).loc main_arg1)) := by
  refine (Cert.Spec.sum_corner (fun b : Fin 16 => ∑ k : Fin 4, KAcc.BL m c (4 * b.val + k.val))).trans ?_
  unfold Cert.Spec.total
  refine Finset.sum_congr rfl fun b _ => ?_
  rw [Cert.Spec.sum_frames_by_blocks]
  refine Finset.sum_congr rfl fun k _ => ?_
  rw [BL_eq]
  rfl

/-- The result the host's tail leaves: the zero pattern plus the sum of the whole output array, over the pattern of
    65536 — the sum over all three axes into the one element of rank 0 is the sum over every index. -/
private theorem tail_eq (c : Dev nD) :
    Pipeline.afterTail₀ cfgs (dats m) 0 (V0 m) [hostOps1] c main_v3
      = (fun _ => Cert.Spec.final (m ((c.tc : Thread nD τ).loc main_arg0)) (m ((c.tc : Thread nD τ).loc main_arg1))) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v1) = OUT m c from
      (Pipeline.withArrays_arr spec0 launch0.win.arr_inj c _ _ 2).trans (arr_eq m c)]
  funext i
  show Ideal.div (Host.reduceAdd (F := Ideal) (OUT m c) (constant S_ .f32 0x00000000#32) Facts₀.reducesTo_S16x8x128_S_d0_1_2 Facts₀.h_S_ i) (Ideal.ofBits .f32 0x47800000#32) = _
  unfold Cert.Spec.final
  congr 1
  simp only [Host.reduceAdd, Ideal.hostReduceAdd_def]
  refine (Ideal.hostReduceAdd_total Facts₀.reducesTo_S16x8x128_S_d0_1_2 (fun b => b.elim0) (OUT m c) _ i).trans ?_
  rw [sum_OUT]
  rfl

/-- The idealized kernel's run with its result named: the loss of the batch over 65536. -/
theorem run : θ_run (defs (F := Ideal)) (onTc (τ := τ) (main (F := Ideal))) ⟨m, fun _ => 0, ρ⟩ (fun r => ∀ c : Dev nD,
      r.2.mem ((c.tc : Thread nD τ).loc main_v3)
        = (fun _ => Cert.Spec.final (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v3 (Pipeline.mem_restRefs_of main_v3 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KArr

end
-- ==== Proof.RefRun.lean ====
/-
  The reference's run: every weakly fair execution of its @main terminates with the result buffer at the last stage's
  value of the argument arrays, the arguments unchanged.

  The operation list is run as a whole (the generated list and its side conditions); what its result buffer then holds
  is read stretch by stretch. The list is cut after each of the eight scatters and before the closing sums: a stretch
  starts from ANY contents that hold the few buffers it reads at their stages (the log-softmax, the class words, the
  two index iotas, the previous round's array) and leaves those where they were and its own scatter at its stage.
  Within a stretch each operation's result is its function of its operands' contents; an inlined callee's operations
  move contents to their buffers' types and back, which cancels in pairs, and at the callee's boundary buffers the
  move is the identity; a three-operand concatenation is named with its operands at their own references. Composed,
  the nine stretches give the last stage at the result buffer.
-/
import proofs.«415570_j35390530519630_1_alg».proof.Proof.RefRead
import proofs.«415570_j35390530519630_1_alg».proof.Proof.RefRunGen

noncomputable section

namespace Cert.ReferenceIdeal.RefRun

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## Contents at a typed reference -/

/-- Contents moved to a typed reference's buffer type and back are unchanged (the two transports are along one equation
    and its inverse). -/
theorem ofBuf_toBuf {T : BufTy} (x : TRef sig T) (v : T.Contents (Elt F)) : x.ofBuf (x.toBuf v) = v := by
  obtain ⟨r, h, h', h''⟩ := x
  subst h
  rfl

/-- At a literal reference the transport from the buffer's type to the value's is the identity: the reference's
    type IS the value's. One statement per buffer an inlined callee reads from outside. -/
local macro "in_bridge " n:ident r:ident T:term : command =>
  `(set_option maxRecDepth 100000 in
    theorem $n {F : FTy → Type} (w : (Proc.devRef .tc $r : DevRef τ sig).ty.Contents (Elt F)) :
      (TRef.of $r : TRef sig $T).ofBuf w = w := rfl)

/-- And back, for each buffer an inlined callee hands to the operations after it. -/
local macro "out_bridge " n:ident r:ident T:term : command =>
  `(set_option maxRecDepth 100000 in
    theorem $n {F : FTy → Type} (w : ($T : BufTy).Contents (Elt F)) :
      (TRef.of $r : TRef sig $T).toBuf w = w := rfl)

in_bridge ofBuf_main_arg0 main_arg0 ⟨S16x4096x722, .f32⟩
in_bridge ofBuf_main_c_0 main_c_0 ⟨S_, .i32⟩
in_bridge ofBuf_main_v7 main_v7 ⟨S16x4096, .i32⟩
in_bridge ofBuf_main_c_1 main_c_1 ⟨S_, .i32⟩
in_bridge ofBuf_main_c_10 main_c_10 ⟨S_, .i32⟩
in_bridge ofBuf_main_v33 main_v33 ⟨S16x4096, .i32⟩
in_bridge ofBuf_main_c_11 main_c_11 ⟨S_, .i32⟩
in_bridge ofBuf_main_c_20 main_c_20 ⟨S_, .i32⟩
in_bridge ofBuf_main_v59 main_v59 ⟨S16x4096, .i32⟩
in_bridge ofBuf_main_c_21 main_c_21 ⟨S_, .i32⟩
in_bridge ofBuf_main_c_30 main_c_30 ⟨S_, .i32⟩
in_bridge ofBuf_main_v85 main_v85 ⟨S16x4096, .i32⟩
in_bridge ofBuf_main_c_31 main_c_31 ⟨S_, .i32⟩
in_bridge ofBuf_main_c_40 main_c_40 ⟨S_, .i32⟩
in_bridge ofBuf_main_v111 main_v111 ⟨S16x4096, .i32⟩
in_bridge ofBuf_main_c_41 main_c_41 ⟨S_, .i32⟩
in_bridge ofBuf_main_c_50 main_c_50 ⟨S_, .i32⟩
in_bridge ofBuf_main_v137 main_v137 ⟨S16x4096, .i32⟩
in_bridge ofBuf_main_c_51 main_c_51 ⟨S_, .i32⟩
in_bridge ofBuf_main_c_60 main_c_60 ⟨S_, .i32⟩
in_bridge ofBuf_main_v163 main_v163 ⟨S16x4096, .i32⟩
in_bridge ofBuf_main_c_61 main_c_61 ⟨S_, .i32⟩
in_bridge ofBuf_main_c_70 main_c_70 ⟨S_, .i32⟩
in_bridge ofBuf_main_v189 main_v189 ⟨S16x4096, .i32⟩
in_bridge ofBuf_main_c_71 main_c_71 ⟨S_, .i32⟩

out_bridge toBuf_main_v0 main_v0 ⟨S16x4096x722, .f32⟩
out_bridge toBuf_main_v8 main_v8 ⟨S16x4096, .i32⟩
out_bridge toBuf_main_v34 main_v34 ⟨S16x4096, .i32⟩
out_bridge toBuf_main_v60 main_v60 ⟨S16x4096, .i32⟩
out_bridge toBuf_main_v86 main_v86 ⟨S16x4096, .i32⟩
out_bridge toBuf_main_v112 main_v112 ⟨S16x4096, .i32⟩
out_bridge toBuf_main_v138 main_v138 ⟨S16x4096, .i32⟩
out_bridge toBuf_main_v164 main_v164 ⟨S16x4096, .i32⟩
out_bridge toBuf_main_v190 main_v190 ⟨S16x4096, .i32⟩

/-! ## The concatenations -/

/-- A three-operand concatenation of index columns along the last axis, as a function of the three operands' contents
    AT THEIR REFERENCES' OWN TYPES (the references are literals of the column type [16, 4096, 1]): the operation's
    function applied to the three contents, named so that each argument — whatever a reference is found to hold — can
    be rewritten in place. One definition and one result statement per concatenation of @main. -/
local macro "cat_result " d:ident n:ident x:ident a:ident b:ident y:ident : command =>
  `(def $d {F : FTy → Type} (u0 : (Proc.devRef .tc $x : DevRef τ sig).ty.Contents (Elt F)) (u1 : (Proc.devRef .tc $a : DevRef τ sig).ty.Contents (Elt F))
        (u2 : (Proc.devRef .tc $b : DevRef τ sig).ty.Contents (Elt F)) : (Proc.devRef .tc $y : DevRef τ sig).ty.Contents (Elt F) :=
      concatenate S16x4096x3 2 [⟨S16x4096x1, u0⟩, ⟨S16x4096x1, u1⟩, ⟨S16x4096x1, u2⟩] concatenates_S16x4096x1_S16x4096x1_S16x4096x1_S16x4096x3_d2
    theorem $n {F : FTy → Type} [FloatOps F] (V : Valuation τ sig (Elt F)) (hxs hy) :
      (nary (τ := τ) ![$x, $a, $b] $y (fun u => concatenate S16x4096x3 2 [⟨S16x4096x1, u 0⟩, ⟨S16x4096x1, u 1⟩, ⟨S16x4096x1, u 2⟩] concatenates_S16x4096x1_S16x4096x1_S16x4096x1_S16x4096x3_d2) hxs hy).result V (no_index (Proc.devRef .tc $y))
        = $d (V (Proc.devRef .tc $x)) (V (Proc.devRef .tc $a)) (V (Proc.devRef .tc $b)) :=
    (nary_result' _ _ _ _ V).trans rfl)

cat_result cat_main_v29 cat_main_v29_result main_v26 main_v27 main_v28 main_v29
cat_result cat_main_v55 cat_main_v55_result main_v52 main_v53 main_v54 main_v55
cat_result cat_main_v81 cat_main_v81_result main_v78 main_v79 main_v80 main_v81
cat_result cat_main_v107 cat_main_v107_result main_v104 main_v105 main_v106 main_v107
cat_result cat_main_v133 cat_main_v133_result main_v130 main_v131 main_v132 main_v133
cat_result cat_main_v159 cat_main_v159_result main_v156 main_v157 main_v158 main_v159
cat_result cat_main_v185 cat_main_v185_result main_v182 main_v183 main_v184 main_v185
cat_result cat_main_v211 cat_main_v211_result main_v208 main_v209 main_v210 main_v211

/-! ## One pass over a stretch -/

/-- The operations' results by one simplification pass: each operation's result at its own reference is its function of
    its operands' contents, at any other reference what was there; a concatenation by its statement above. -/
local macro "stage_results" : tactic =>
  `(tactic| (simp (disch := decide) only [after_cons, after_nil,
      nullary_result', unary_result', binary_result', ternary_result', quaternary_result', reshape_result', cat_main_v29_result, cat_main_v55_result, cat_main_v81_result, cat_main_v107_result, cat_main_v133_result, cat_main_v159_result, cat_main_v185_result, cat_main_v211_result, nary4_result',
      unaryIndexed_result', binaryIndexed_result',
      nullary_result_ne', unary_result_ne', binary_result_ne', ternary_result_ne', quaternary_result_ne', reshape_result_ne',
      nary_result_ne', unaryIndexed_result_ne', binaryIndexed_result_ne']))

/-! ## The stretches -/

set_option maxRecDepth 200000 in
set_option maxHeartbeats 16000000 in
/-- The first stretch: the log-softmax, the two index iotas, the zero array and the first scatter, from any contents. -/
theorem stretch0 (V : Valuation τ sig (Elt F)) :
    after (ops_s0 : List (HloOp τ sig (Elt F))) V (Proc.devRef .tc main_v0) = val_main_v0 (F := F) (V (Proc.devRef .tc main_arg0))
    ∧ after (ops_s0 : List (HloOp τ sig (Elt F))) V (Proc.devRef .tc main_arg1) = V (Proc.devRef .tc main_arg1)
    ∧ after (ops_s0 : List (HloOp τ sig (Elt F))) V (Proc.devRef .tc main_v2) = val_main_v2 (F := F)
    ∧ after (ops_s0 : List (HloOp τ sig (Elt F))) V (Proc.devRef .tc main_v4) = val_main_v4 (F := F)
    ∧ after (ops_s0 : List (HloOp τ sig (Elt F))) V (Proc.devRef .tc main_v31) = val_main_v31 (F := F) (V (Proc.devRef .tc main_arg1)) := by
  refine ⟨?_, ?_, ?_, ?_, ?_⟩
  · stage_results
    simp only [ofBuf_toBuf]
    rw [ofBuf_main_arg0, toBuf_main_v0]
    rfl
  · stage_results
  · stage_results
    rfl
  · stage_results
    rfl
  · stage_results
    simp only [ofBuf_toBuf]
    rw [ofBuf_main_c_0, ofBuf_main_v7, ofBuf_main_c_1, toBuf_main_v8]
    rfl

/-- One round of the smoothed one-hot: from contents that hold the log-softmax, the class words, the two index iotas
    and the previous round's array at their stages, the stretch's operations leave those where they were and the
    round's scatter at its stage. -/
local macro "round_stretch " n:ident s:ident p:ident q:ident vp:ident vq:ident b1:ident b2:ident b3:ident b4:ident : command =>
  `(theorem $n {F : FTy → Type} [FloatOps F] (V : Valuation τ sig (Elt F))
      (x0 : (⟨S16x4096x722, .f32⟩ : BufTy).Contents (Elt F)) (x1 : (⟨S16x4096, .i32⟩ : BufTy).Contents (Elt F))
      (h0 : V (Proc.devRef .tc main_v0) = val_main_v0 (F := F) x0) (h1 : V (Proc.devRef .tc main_arg1) = x1)
      (h2 : V (Proc.devRef .tc main_v2) = val_main_v2 (F := F)) (h4 : V (Proc.devRef .tc main_v4) = val_main_v4 (F := F))
      (hp : V (Proc.devRef .tc $p) = $vp (F := F) x1) :
      after ($s : List (HloOp τ sig (Elt F))) V (Proc.devRef .tc main_v0) = val_main_v0 (F := F) x0
      ∧ after ($s : List (HloOp τ sig (Elt F))) V (Proc.devRef .tc main_arg1) = x1
      ∧ after ($s : List (HloOp τ sig (Elt F))) V (Proc.devRef .tc main_v2) = val_main_v2 (F := F)
      ∧ after ($s : List (HloOp τ sig (Elt F))) V (Proc.devRef .tc main_v4) = val_main_v4 (F := F)
      ∧ after ($s : List (HloOp τ sig (Elt F))) V (Proc.devRef .tc $q) = $vq (F := F) x1 := by
    refine ⟨?_, ?_, ?_, ?_, ?_⟩
    · stage_results; exact h0
    · stage_results; exact h1
    · stage_results; exact h2
    · stage_results; exact h4
    · stage_results
      simp only [ofBuf_toBuf]
      rw [$b1:ident, $b2:ident, $b3:ident, $b4:ident]
      rw [h1, h2, h4, hp]
      rfl)

set_option maxRecDepth 200000 in
set_option maxHeartbeats 16000000 in
round_stretch stretch1 ops_s1 main_v31 main_v57 val_main_v31 val_main_v57 ofBuf_main_c_10 ofBuf_main_v33 ofBuf_main_c_11 toBuf_main_v34

set_option maxRecDepth 200000 in
set_option maxHeartbeats 16000000 in
round_stretch stretch2 ops_s2 main_v57 main_v83 val_main_v57 val_main_v83 ofBuf_main_c_20 ofBuf_main_v59 ofBuf_main_c_21 toBuf_main_v60

set_option maxRecDepth 200000 in
set_option maxHeartbeats 16000000 in
round_stretch stretch3 ops_s3 main_v83 main_v109 val_main_v83 val_main_v109 ofBuf_main_c_30 ofBuf_main_v85 ofBuf_main_c_31 toBuf_main_v86

set_option maxRecDepth 200000 in
set_option maxHeartbeats 16000000 in
round_stretch stretch4 ops_s4 main_v109 main_v135 val_main_v109 val_main_v135 ofBuf_main_c_40 ofBuf_main_v111 ofBuf_main_c_41 toBuf_main_v112

set_option maxRecDepth 200000 in
set_option maxHeartbeats 16000000 in
round_stretch stretch5 ops_s5 main_v135 main_v161 val_main_v135 val_main_v161 ofBuf_main_c_50 ofBuf_main_v137 ofBuf_main_c_51 toBuf_main_v138

set_option maxRecDepth 200000 in
set_option maxHeartbeats 16000000 in
round_stretch stretch6 ops_s6 main_v161 main_v187 val_main_v161 val_main_v187 ofBuf_main_c_60 ofBuf_main_v163 ofBuf_main_c_61 toBuf_main_v164

set_option maxRecDepth 200000 in
set_option maxHeartbeats 16000000 in
round_stretch stretch7 ops_s7 main_v187 main_v213 val_main_v187 val_main_v213 ofBuf_main_c_70 ofBuf_main_v189 ofBuf_main_c_71 toBuf_main_v190

set_option maxRecDepth 200000 in
set_option maxHeartbeats 16000000 in
/-- The tail: log-softmax times weights, the sum over classes negated, the sum over frames, the division. -/
theorem stretch8 (V : Valuation τ sig (Elt F))
    (x0 : (⟨S16x4096x722, .f32⟩ : BufTy).Contents (Elt F)) (x1 : (⟨S16x4096, .i32⟩ : BufTy).Contents (Elt F))
    (h0 : V (Proc.devRef .tc main_v0) = val_main_v0 (F := F) x0) (hp : V (Proc.devRef .tc main_v213) = val_main_v213 (F := F) x1) :
    after (ops_s8 : List (HloOp τ sig (Elt F))) V (Proc.devRef .tc main_v218) = val_main_v218 (F := F) x0 x1 := by
  stage_results
  rw [h0, hp]
  rfl

/-! ## The whole list, and the run -/

set_option maxRecDepth 200000 in
set_option maxHeartbeats 16000000 in
/-- After the whole list the result buffer holds the last stage of the launch contents of the two arguments. -/
theorem after_ops (L : Valuation τ sig (Elt F)) :
    after (ops : List (HloOp τ sig (Elt F))) L (Proc.devRef .tc main_v218)
      = val_main_v218 (F := F) (L (Proc.devRef .tc main_arg0)) (L (Proc.devRef .tc main_arg1)) := by
  rw [ops_split]
  simp only [after_append]
  obtain ⟨a0, a1, a2, a4, a5⟩ := stretch0 L
  obtain ⟨b0, b1, b2, b4, b5⟩ := stretch1 _ _ _ a0 a1 a2 a4 a5
  obtain ⟨c0, c1, c2, c4, c5⟩ := stretch2 _ _ _ b0 b1 b2 b4 b5
  obtain ⟨d0, d1, d2, d4, d5⟩ := stretch3 _ _ _ c0 c1 c2 c4 c5
  obtain ⟨e0, e1, e2, e4, e5⟩ := stretch4 _ _ _ d0 d1 d2 d4 d5
  obtain ⟨f0, f1, f2, f4, f5⟩ := stretch5 _ _ _ e0 e1 e2 e4 e5
  obtain ⟨g0, g1, g2, g4, g5⟩ := stretch6 _ _ _ f0 f1 f2 f4 f5
  obtain ⟨k0, k1, k2, k4, k5⟩ := stretch7 _ _ _ g0 g1 g2 g4 g5
  exact stretch8 _ _ _ k0 k5

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v218)
        = val_main_v218 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v218).trans (after_ops (launchContents m c)),
      (h c main_arg0).trans (kept_main_arg0 m c), (h c main_arg1).trans (kept_main_arg1 m c)⟩) (run_raw m ρ)

end Cert.ReferenceIdeal.RefRun

end
-- ==== Proof.RefLemmas.lean ====
/-
  Three host operations read at an index, which the stage-by-stage reading of the reference leaves open:
  a scatter of one value per frame at the index triple (b, t, class) — the triples of distinct frames are distinct, so
  each element meets at most one update —, a concatenation of three one-column arrays along the last axis, and a
  maximum over the class axis.
-/
import proofs.«415570_j35390530519630_1_alg».proof.Proof.Gen.ReferenceIdeal
import Idealize.ShloMosaic.PureOps.Ideal.Laws
import Idealize.ShloMosaic.PureOps.Reduce
import Idealize.ShloMosaic.Lib.ValueIdx
import Idealize.ShloMosaic.Lib.Pipeline.Value

set_option maxRecDepth 16384

noncomputable section

namespace Cert.ReferenceIdeal.RefLemmas

open Cert.ReferenceIdeal Cert.ReferenceIdeal.Gen Idealize.ShloMosaic Idealize.ShloMosaic.ValueIdx

/-! ## The scatter -/

/-! ### A left fold of pointwise overwrites, read at one index -/

section Fold
variable {ι β γ : Type} (g : ι → Option β) (f : γ → γ → γ) (v : ι → γ) (step : (β → γ) → ι → (β → γ)) (i₀ : β)

/-- No member of the list lands at `i₀`: the fold leaves the start value there. -/
private theorem foldl_miss (hmiss : ∀ r n, g n ≠ some i₀ → step r n i₀ = r i₀) :
    ∀ (l : List ι) (r : β → γ), (∀ n ∈ l, g n ≠ some i₀) → l.foldl step r i₀ = r i₀
  | [], r, _ => rfl
  | a :: l, r, h => by
    rw [List.foldl_cons, foldl_miss hmiss l (step r a) (fun n hn => h n (List.mem_cons_of_mem a hn)),
      hmiss r a (h a List.mem_cons_self)]

/-- Exactly one member `n₀` of a duplicate-free list lands at `i₀`: the fold holds there the body applied to the
    start value and `n₀`'s update. -/
private theorem foldl_hit (hhit : ∀ r n, g n = some i₀ → step r n i₀ = f (r i₀) (v n))
    (hmiss : ∀ r n, g n ≠ some i₀ → step r n i₀ = r i₀) (n₀ : ι) (h₀ : g n₀ = some i₀) :
    ∀ (l : List ι) (r : β → γ), l.Nodup → n₀ ∈ l → (∀ n ∈ l, g n = some i₀ → n = n₀) →
      l.foldl step r i₀ = f (r i₀) (v n₀)
  | [], r, _, hm, _ => absurd hm List.not_mem_nil
  | a :: l, r, hnd, hm, huniq => by
    rw [List.foldl_cons]
    have hnd' := List.nodup_cons.1 hnd
    by_cases ha : a = n₀
    · subst ha
      rw [foldl_miss g step i₀ hmiss l (step r a) (fun n hn e => hnd'.1 (huniq n (List.mem_cons_of_mem a hn) e ▸ hn)),
        hhit r a h₀]
    · have hm' : n₀ ∈ l := (List.mem_cons.1 hm).resolve_left (fun e => ha e.symm)
      rw [foldl_hit hhit hmiss n₀ h₀ l (step r a) hnd'.2 hm' (fun n hn => huniq n (List.mem_cons_of_mem a hn)),
        hmiss r a (fun e => ha (huniq a List.mem_cons_self e))]

end Fold

/-! ### A class word in range and its class -/

/-- For a word whose signed value lies in `[0, 722)`: that value is the class `c` exactly when the word is `c`'s. -/
private theorem word_class (w : BitVec 32) (h0 : (0 : Int) ≤ w.toInt) (h1 : w.toInt < 722) (c : Fin 722) :
    w.toInt.toNat = c.val ↔ BitVec.ofNat 32 c.val = w := by
  have hc : (BitVec.ofNat 32 c.val).toInt = (c.val : Int) := by
    rw [BitVec.toInt_eq_toNat_of_lt (by rw [BitVec.toNat_ofNat]; have := c.isLt; omega), BitVec.toNat_ofNat]
    have := c.isLt; omega
  constructor
  · intro h
    apply BitVec.eq_of_toInt_eq
    rw [hc]; omega
  · intro h
    rw [← h, hc]; omega

/-- A number below 4096 as a word reads back signed as itself. -/
private theorem toInt_ofNat_small (n : Nat) (hn : n < 4096) : (BitVec.ofNat 32 n).toInt = (n : Int) := by
  rw [BitVec.toInt_eq_toNat_of_lt (by rw [BitVec.toNat_ofNat]; omega), BitVec.toNat_ofNat]
  omega

/-! ### The scatter's dimension numbers at this program's shapes -/

private abbrev sd := scatter_S16x4096x722_S16x4096x3_S16x4096_n_012_012_2

/-- Every operand axis is an inserted window axis, so the window coordinate is 0 on each. -/
private theorem window_zero (j : S16x4096.Idx) (a : Fin 3) : sd.window j a = 0 := by
  have h : ∀ a : Fin S16x4096x722.rank, a ∉ sd.sKept := by decide
  unfold ScatterDims.window
  exact dif_neg (h a)

/-- The start on operand axis `a` for the frame (b', t') is component `a` of that frame's index triple, read signed. -/
private theorem start_ax (b' : Fin 16) (t' : Fin 4096) (idx : IVec S16x4096x3 32) (a : Fin 3) :
    sd.start (ix2 b' t') idx a = (idx (ix3 b' t' a)).toInt := by
  have hmem : ∀ a : Fin S16x4096x722.rank, a ∈ sd.scatterDimsToOperandDims := by decide
  unfold ScatterDims.start
  rw [dif_pos (hmem a)]
  congr 2
  funext c
  apply Fin.ext
  fin_cases a <;> fin_cases c <;> rfl

/-- Frame (b', t')'s update lands at (b', t', its class): every axis is in range. -/
private theorem resultIdx_frame (idx : IVec S16x4096x3 32)
    (hb : ∀ (b : Fin 16) (t : Fin 4096), idx (ix3 b t 0) = BitVec.ofNat 32 b.val)
    (ht : ∀ (b : Fin 16) (t : Fin 4096), idx (ix3 b t 1) = BitVec.ofNat 32 t.val)
    (hr : ∀ (b : Fin 16) (t : Fin 4096), (0 : Int) ≤ (idx (ix3 b t 2)).toInt ∧ (idx (ix3 b t 2)).toInt < 722)
    (b' : Fin 16) (t' : Fin 4096) :
    sd.resultIdx? (ix2 b' t') idx
      = some (ix3 b' t' (⟨(idx (ix3 b' t' 2)).toInt.toNat, by have := hr b' t'; omega⟩ : Fin 722)) := by
  have hs : ∀ a : Fin 3, sd.start (ix2 b' t') idx a + (sd.window (ix2 b' t') a : Int) = (idx (ix3 b' t' a)).toInt := by
    intro a; rw [start_ax, window_zero]; simp
  have h0 : (idx (ix3 b' t' 0)).toInt = (b'.val : Int) := by
    rw [hb]; exact toInt_ofNat_small _ (by have := b'.isLt; omega)
  have h1 : (idx (ix3 b' t' 1)).toInt = (t'.val : Int) := by
    rw [ht]; exact toInt_ofNat_small _ t'.isLt
  have hall : ∀ a : Fin S16x4096x722.rank, 0 ≤ sd.start (ix2 b' t') idx a + (sd.window (ix2 b' t') a : Int)
      ∧ sd.start (ix2 b' t') idx a + (sd.window (ix2 b' t') a : Int) < (S16x4096x722.size a : Int) := by
    intro a
    rw [hs a]
    match a with
    | ⟨0, _⟩ =>
      show 0 ≤ (idx (ix3 b' t' 0)).toInt ∧ (idx (ix3 b' t' 0)).toInt < ((16 : Nat) : Int)
      rw [h0]; have := b'.isLt; omega
    | ⟨1, _⟩ =>
      show 0 ≤ (idx (ix3 b' t' 1)).toInt ∧ (idx (ix3 b' t' 1)).toInt < ((4096 : Nat) : Int)
      rw [h1]; have := t'.isLt; omega
    | ⟨2, _⟩ =>
      show 0 ≤ (idx (ix3 b' t' 2)).toInt ∧ (idx (ix3 b' t' 2)).toInt < ((722 : Nat) : Int)
      have := hr b' t'; omega
  unfold ScatterDims.resultIdx?
  rw [dif_pos hall]
  congr 1
  funext a
  apply Fin.ext
  show (sd.start (ix2 b' t') idx a + (sd.window (ix2 b' t') a : Int)).toNat = _
  rw [hs a]
  match a with
  | ⟨0, _⟩ =>
    show (idx (ix3 b' t' 0)).toInt.toNat = b'.val
    rw [h0]; omega
  | ⟨1, _⟩ =>
    show (idx (ix3 b' t' 1)).toInt.toNat = t'.val
    rw [h1]; omega
  | ⟨2, _⟩ => rfl

/-- Equal index triples have equal coordinates. -/
private theorem ix3_inj {n0 n1 n2 : Nat} {a a' : Fin n0} {b b' : Fin n1} {c c' : Fin n2}
    (h : ix3 a b c = ix3 a' b' c') : a = a' ∧ b = b' ∧ c = c' :=
  ⟨congrFun h 0, congrFun h 1, congrFun h 2⟩

/-- A `set`-scatter whose index triple for frame (b, t) is (b, t, cls b t), the class in range: the element (b, t, c)
    is the frame's update when `c` is that class and the operand's element otherwise. -/
theorem scatter_set_apply {α : Type} (x : S16x4096x722.Idx → α) (idx : IVec S16x4096x3 32) (upd : S16x4096.Idx → α)
    (hb : ∀ (b : Fin 16) (t : Fin 4096), idx (ix3 b t 0) = BitVec.ofNat 32 b.val)
    (ht : ∀ (b : Fin 16) (t : Fin 4096), idx (ix3 b t 1) = BitVec.ofNat 32 t.val)
    (hr : ∀ (b : Fin 16) (t : Fin 4096), (0 : Int) ≤ (idx (ix3 b t 2)).toInt ∧ (idx (ix3 b t 2)).toInt < 722)
    (b : Fin 16) (t : Fin 4096) (c : Fin 722) :
    Host.scatter scatter_S16x4096x722_S16x4096x3_S16x4096_n_012_012_2 (fun _ u => u) x idx upd (ix3 b t c)
      = if BitVec.ofNat 32 c.val = idx (ix3 b t 2) then upd (ix2 b t) else x (ix3 b t c) := by
  -- where the update of index n, read as a frame, lands
  have hg : ∀ (n : Fin S16x4096.numel) (b' : Fin 16) (t' : Fin 4096), S16x4096.rowMajor.symm n = ix2 b' t' →
      sd.resultIdx? (S16x4096.rowMajor.symm n) idx
        = some (ix3 b' t' (⟨(idx (ix3 b' t' 2)).toInt.toNat, by have := hr b' t'; omega⟩ : Fin 722)) := by
    intro n b' t' e
    rw [e]
    exact resultIdx_frame idx hb ht hr b' t'
  have hcls : BitVec.ofNat 32 c.val = idx (ix3 b t 2) →
      (⟨(idx (ix3 b t 2)).toInt.toNat, by have := hr b t; omega⟩ : Fin 722) = c := fun hc =>
    Fin.ext ((word_class _ (hr b t).1 (hr b t).2 c).2 hc)
  have hn₀ : S16x4096.rowMajor.symm (S16x4096.rowMajor (ix2 b t)) = ix2 b t := Equiv.symm_apply_apply _ _
  unfold Host.scatter
  by_cases hc : BitVec.ofNat 32 c.val = idx (ix3 b t 2)
  · rw [if_pos hc]
    have h₀ : sd.resultIdx? (S16x4096.rowMajor.symm (S16x4096.rowMajor (ix2 b t))) idx = some (ix3 b t c) := by
      rw [hg _ b t hn₀, hcls hc]
    refine (foldl_hit (fun n : Fin S16x4096.numel => sd.resultIdx? (S16x4096.rowMajor.symm n) idx) (fun _ u => u)
      (fun n : Fin S16x4096.numel => upd (S16x4096.rowMajor.symm n)) _ (ix3 b t c) ?_ ?_ (S16x4096.rowMajor (ix2 b t)) h₀
      (List.finRange S16x4096.numel) x (List.nodup_finRange _) (List.mem_finRange _) ?_).trans ?_
    · -- an update landing at (b, t, c) overwrites the element
      intro r n h
      have h' : sd.resultIdx? (S16x4096.rowMajor.symm n) idx = some (ix3 b t c) := h
      rw [h']
      exact if_pos rfl
    · -- any other update leaves it
      intro r n h
      have h' : sd.resultIdx? (S16x4096.rowMajor.symm n) idx ≠ some (ix3 b t c) := h
      generalize sd.resultIdx? (S16x4096.rowMajor.symm n) idx = o at h' ⊢
      cases o with
      | none => rfl
      | some i => exact if_neg (fun e => h' (by rw [e]))
    · -- only frame (b, t)'s update lands there
      intro n _ hn
      have e := eq_ix2 (S16x4096.rowMajor.symm n)
      have hn' : sd.resultIdx? (S16x4096.rowMajor.symm n) idx = some (ix3 b t c) := hn
      rw [hg n _ _ e] at hn'
      obtain ⟨hb', ht', _⟩ := ix3_inj (Option.some.inj hn')
      have e' : S16x4096.rowMajor.symm n = ix2 b t := e.trans (by rw [hb', ht'] <;> rfl)
      exact (Equiv.symm_apply_eq _).1 e'
    · show upd (S16x4096.rowMajor.symm (S16x4096.rowMajor (ix2 b t))) = upd (ix2 b t)
      rw [hn₀]
  · rw [if_neg hc]
    refine foldl_miss (fun n : Fin S16x4096.numel => sd.resultIdx? (S16x4096.rowMajor.symm n) idx) _ (ix3 b t c) ?_
      (List.finRange S16x4096.numel) x ?_
    · intro r n h
      have h' : sd.resultIdx? (S16x4096.rowMajor.symm n) idx ≠ some (ix3 b t c) := h
      generalize sd.resultIdx? (S16x4096.rowMajor.symm n) idx = o at h' ⊢
      cases o with
      | none => rfl
      | some i => exact if_neg (fun e => h' (by rw [e]))
    · -- no frame's update lands at (b, t, c): it would be frame (b, t)'s, whose class is not c
      intro n _ hn
      have e := eq_ix2 (S16x4096.rowMajor.symm n)
      have hn' : sd.resultIdx? (S16x4096.rowMajor.symm n) idx = some (ix3 b t c) := hn
      rw [hg n _ _ e] at hn'
      obtain ⟨hb', ht', hc'⟩ := ix3_inj (Option.some.inj hn')
      have hcv : (idx (ix3 ((S16x4096.rowMajor.symm n) 0) ((S16x4096.rowMajor.symm n) 1) 2)).toInt.toNat = c.val :=
        congrArg Fin.val hc'
      rw [hb', ht'] at hcv
      exact hc ((word_class _ (hr b t).1 (hr b t).2 c).1 hcv)

/-! ## The concatenation -/

/-- Piece `k` of three one-column pieces along the last axis: its span on that axis is the single coordinate `k`, so the
    concatenation read at column `k` is that piece read at column 0, the other coordinates unchanged. -/
private theorem concat3_piece {α : Type} (u0 u1 u2 : S16x4096x1.Idx → α) (b : Fin 16) (t : Fin 4096)
    (k : Fin 3) (x₁ : S16x4096x1.Idx → α)
    (hxk : ([⟨S16x4096x1, u0⟩, ⟨S16x4096x1, u1⟩, ⟨S16x4096x1, u2⟩] : List ((s : Shape) × (s.Idx → α)))[k.val]'(by simpa using k.isLt) = ⟨S16x4096x1, x₁⟩) :
    concatenate S16x4096x3 2 [⟨S16x4096x1, u0⟩, ⟨S16x4096x1, u1⟩, ⟨S16x4096x1, u2⟩]
        concatenates_S16x4096x1_S16x4096x1_S16x4096x1_S16x4096x3_d2 (ix3 b t k) = x₁ (ix3 b t 0) := by
  refine concatenate_apply_piece (2 : Fin S16x4096x3.rank) _ _ (ix3 b t k) k.val (by simpa using k.isLt) S16x4096x1 x₁ hxk rfl k.val ?_
    (ix3 b t 0) ?_ ?_
  · fin_cases k <;> rfl
  · intro c hc
    match c, hc with
    | ⟨0, _⟩, _ => rfl
    | ⟨1, _⟩, _ => rfl
    | ⟨2, _⟩, hc => exact absurd rfl hc
  · fin_cases k <;> rfl

/-- The three-column concatenation read at a column. -/
theorem concat3_apply {α : Type} (u0 u1 u2 : S16x4096x1.Idx → α) (b : Fin 16) (t : Fin 4096) :
    concatenate S16x4096x3 2 [⟨S16x4096x1, u0⟩, ⟨S16x4096x1, u1⟩, ⟨S16x4096x1, u2⟩] concatenates_S16x4096x1_S16x4096x1_S16x4096x1_S16x4096x3_d2 (ix3 b t 0) = u0 (ix3 b t 0)
    ∧ concatenate S16x4096x3 2 [⟨S16x4096x1, u0⟩, ⟨S16x4096x1, u1⟩, ⟨S16x4096x1, u2⟩] concatenates_S16x4096x1_S16x4096x1_S16x4096x1_S16x4096x3_d2 (ix3 b t 1) = u1 (ix3 b t 0)
    ∧ concatenate S16x4096x3 2 [⟨S16x4096x1, u0⟩, ⟨S16x4096x1, u1⟩, ⟨S16x4096x1, u2⟩] concatenates_S16x4096x1_S16x4096x1_S16x4096x1_S16x4096x3_d2 (ix3 b t 2) = u2 (ix3 b t 0) :=
  ⟨concat3_piece u0 u1 u2 b t 0 u0 rfl, concat3_piece u0 u1 u2 b t 1 u1 rfl, concat3_piece u0 u1 u2 b t 2 u2 rfl⟩

/-! ## The maximum over the class axis -/

/-- The frame shape is the logits' shape with the class axis dropped. -/
private theorem reduces_d2 : S16x4096x722.Reduces [2] S16x4096 := by decide

/-- The frame (b, t) with class `k` put back on the dropped axis is (b, t, k). -/
private theorem lift_d2 (b : Fin 16) (t : Fin 4096) (k : Fin (S16x4096x722.size 2)) :
    reduces_d2.lift (ix2 b t) k = ix3 b t (⟨k.val, k.isLt⟩ : Fin 722) := by
  funext c; apply Fin.ext
  fin_cases c <;> rfl

/-- The host's maximum over the class axis at a frame: the fold of `max` from the initial value over the 722 classes. -/
theorem reduce_max_apply (x : FVec Ideal S16x4096x722 .f32) (init : S_.Idx → EReal) (b : Fin 16) (t : Fin 4096) :
    Host.reduce (FloatOps.maximumf (F := Ideal) (φ := .f32)) x init reducesTo_S16x4096x722_S16x4096_d2 h_S_ (ix2 b t)
      = (Finset.univ : Finset (Fin 722)).fold max (init (Shape.Idx.first h_S_)) (fun k => x (ix3 b t k)) := by
  rw [Host.reduce_eq_fold_single (FloatOps.maximumf (F := Ideal) (φ := .f32)) x init reducesTo_S16x4096x722_S16x4096_d2 reduces_d2 h_S_]
  have hf : (x ∘ reduces_d2.lift (ix2 b t)) = fun k : Fin 722 => x (ix3 b t k) :=
    funext fun k => congrArg x (lift_d2 b t k)
  rw [hf]
  rfl

end Cert.ReferenceIdeal.RefLemmas

end
-- ==== Proof.RefSoftmax.lean ====
/-
  The reference's log-softmax stage read at an element: the row's logit less the row maximum, less the logarithm of
  the row's sum of exponentials of those differences.
-/
import proofs.«415570_j35390530519630_1_alg».proof.Proof.RefRead
import proofs.«415570_j35390530519630_1_alg».proof.Proof.RefLemmas
import proofs.«415570_j35390530519630_1_alg».proof.Proof.Spec

set_option maxRecDepth 16384

noncomputable section

namespace Cert.ReferenceIdeal.RefValue

open Cert.ReferenceIdeal Cert.ReferenceIdeal.Gen Cert.ReferenceIdeal.ReadP Idealize.ShloMosaic Idealize.ShloMosaic.ValueIdx

/-- The maximum stage at frame (b, t): the larger of the −∞ pattern and the fold of `max` from that pattern over the
    frame's 722 logits, which is the row maximum as the specification writes it. -/
private theorem rowMax_apply (x0 : (⟨S16x4096x722, .f32⟩ : BufTy).Contents (Elt Ideal)) (b : Fin 16) (t : Fin 4096) :
    val_main_call0_v2 (F := Ideal) x0 (ix2 b t) = Cert.Spec.rowMax (fun k => x0 (ix3 b t k)) := by
  rw [val_main_call0_v2_apply, val_main_call0_v1_apply, val_main_call0_cst_0_apply]
  unfold val_main_call0_v0
  rw [RefLemmas.reduce_max_apply, val_main_call0_cst_apply]
  simp only [Ideal.maximumf_def, Ideal.ofBits_def]
  rfl

/-- The shifted logit at (b, t, k): the logit less the frame's row maximum. The maximum is broadcast along the class
    axis, so the element (b, t, k) reads it at the frame (b, t) whatever `k` is. -/
private theorem shifted_apply (x0 : (⟨S16x4096x722, .f32⟩ : BufTy).Contents (Elt Ideal)) (b : Fin 16) (t : Fin 4096)
    (k : Fin 722) :
    val_main_call0_v5 (F := Ideal) x0 (ix3 b t k) = x0 (ix3 b t k) - Cert.Spec.rowMax (fun k => x0 (ix3 b t k)) := by
  rw [val_main_call0_v5_apply, val_main_call0_v4_apply, val_main_call0_v3_apply]
  -- the two broadcasts drop the class coordinate: (b, t, k) ↦ (b, t, 0) ↦ (b, t)
  have h : idx_main_call0_v3 (idx_main_call0_v4 (ix3 b t k)) = ix2 b t :=
    funext fun a => Fin.ext (by match a with | ⟨0, _⟩ => rfl | ⟨1, _⟩ => rfl)
  rw [h, rowMax_apply, Ideal.subf_def]

theorem logp_apply (x0 : (⟨S16x4096x722, .f32⟩ : BufTy).Contents (Elt Ideal)) (b : Fin 16) (t : Fin 4096) (c : Fin 722) :
    val_main_v0 (F := Ideal) x0 (ix3 b t c) = Cert.Spec.logp (fun k => x0 (ix3 b t k)) c := by
  -- the last difference, then the logarithm of the class-axis sum read at the frame (b, t)
  rw [val_main_v0_apply, val_main_call0_v10_apply, val_main_call0_v9_apply, val_main_call0_v8_apply,
    val_main_call0_v7_apply, val_main_call0_cst_1_apply]
  have h : idx_main_call0_v8 (idx_main_call0_v10 (ix3 b t c)) = ix2 b t :=
    funext fun a => Fin.ext (by match a with | ⟨0, _⟩ => rfl | ⟨1, _⟩ => rfl)
  rw [h, shifted_apply]
  -- the sum starts from the zero pattern, which is the extended real 0
  simp only [Ideal.subf_def, Ideal.hostUnary_log_def, Ideal.ofBits_def, Ideal.ofBits_zero_f32, zero_add]
  unfold Cert.Spec.logp
  refine congrArg (fun s => (x0 (ix3 b t c) - Cert.Spec.rowMax (fun k => x0 (ix3 b t k))) - Ideal.log s) ?_
  -- term by term: the k-th summand is the exponential of the shifted logit at (b, t, k)
  refine Finset.sum_congr rfl fun k _ => ?_
  have hk : idx_main_call0_v7 (ix2 b t) k = ix3 b t k :=
    funext fun a => Fin.ext (by match a with | ⟨0, _⟩ => rfl | ⟨1, _⟩ => rfl | ⟨2, _⟩ => rfl)
  rw [val_main_call0_v6_apply, hk, shifted_apply, Ideal.hostUnary_exp_def]

end Cert.ReferenceIdeal.RefValue

end
-- ==== Proof.RefOnehot.lean ====
/-
  The reference's smoothed one-hot array read at an element: eight scatters of one decay per frame into a zero array,
  at the clamped neighbour classes, farthest first; the element is the last scatter that hits it, else zero.

  Each of the eight rounds builds, per frame (b, t), the index triple (b, t, clamp (τ + d)) — the batch number and the
  time step are counters, all three columns pass through the wrap of a negative index, which is the identity on them —
  and overwrites that one element with the round's decay. One lemma states a round over abstract columns; the eight
  rounds instantiate it, each reading its own buffers.
-/
import proofs.«415570_j35390530519630_1_alg».proof.Proof.RefRead
import proofs.«415570_j35390530519630_1_alg».proof.Proof.RefLemmas
import proofs.«415570_j35390530519630_1_alg».proof.Proof.Spec
import Idealize.ShloMosaic.Lib.StableHlo.Predicate

set_option maxRecDepth 16384

noncomputable section

namespace Cert.ReferenceIdeal.RefValue

open Cert.ReferenceIdeal Cert.ReferenceIdeal.Gen Cert.ReferenceIdeal.ReadP Idealize.ShloMosaic Idealize.ShloMosaic.ValueIdx
open Cert.ReferenceIdeal.RefLemmas Idealize.ShloMosaic.StableHlo.Predicate

/-! ### Words: the wrap of a negative index, and the clamp's range -/

/-- A word whose signed value is not negative fails the test "below zero", so the wrap of a negative index
    (add the extent when the index is below zero) leaves it as it is. -/
private theorem wrap_of_nonneg (w k : BitVec 32) (h : 0 ≤ w.toInt) :
    Scalar.select (IntOp.cmpi .slt w 0#32) (IntOp.addi w k) w = w := by
  have h0 : (0#32 : BitVec 32).toInt = 0 := by decide
  have hs : w.slt 0#32 = false := by
    simp only [BitVec.slt, h0, decide_eq_false_iff_not, not_lt]; exact h
  have hc : IntOp.cmpi .slt w 0#32 = 0#1 := by
    show BitVec.ofBool (w.slt 0#32) = 0#1
    rw [hs]; rfl
  rw [hc]; exact select_zero _ _

/-- The word of a number below 2³¹ is not negative: its wrap is itself. -/
private theorem wrap_ofNat (n : Nat) (hn : n < 2 ^ 31) (k : BitVec 32) :
    Scalar.select (IntOp.cmpi .slt (BitVec.ofNat 32 n) 0#32) (IntOp.addi (BitVec.ofNat 32 n) k) (BitVec.ofNat 32 n)
      = BitVec.ofNat 32 n :=
  wrap_of_nonneg _ _ (by rw [toInt_ofNat_small n hn]; exact Int.natCast_nonneg n)

/-- A clamped class word is a class: its signed value lies in [0, 722). -/
private theorem clampC_range (v : BitVec 32) :
    (0 : Int) ≤ (Cert.Spec.clampC v).toInt ∧ (Cert.Spec.clampC v).toInt < 722 := by
  have h0 : (0#32 : BitVec 32).toInt = 0 := by decide
  have h721 : (721#32 : BitVec 32).toInt = 721 := by decide
  unfold Cert.Spec.clampC IntOp.minsi IntOp.maxsi
  by_cases hv : v.slt 0#32 = true
  · rw [if_pos hv, if_neg (by decide)]
    rw [h0]; omega
  · rw [if_neg hv]
    have hv' : 0 ≤ v.toInt := by
      simp only [BitVec.slt, h0, decide_eq_true_eq, not_lt] at hv; exact hv
    by_cases hu : (721#32 : BitVec 32).slt v = true
    · rw [if_pos hu, h721]; omega
    · rw [if_neg hu]
      simp only [BitVec.slt, h721, decide_eq_true_eq, not_lt] at hu
      omega

/-- ONE ROUND of the smoothing. The index array is the concatenation of three columns: the frame's batch number, its
    time step, and the clamped neighbour class `clamp (τ + d)` of its target word `τ`; the update is one decay per frame.
    The scatter then overwrites, in frame (b, t), exactly the class that is the clamped neighbour, and leaves the rest. -/
private theorem round_apply {α : Type} (prev : S16x4096x722.Idx → α) (x1 : S16x4096.Idx → BitVec 32)
    (colB colT colC : S16x4096x1.Idx → BitVec 32) (upd : S16x4096.Idx → α) (d : BitVec 32) (dec : α)
    (hB : ∀ (b : Fin 16) (t : Fin 4096), colB (ix3 b t 0) = BitVec.ofNat 32 b.val)
    (hT : ∀ (b : Fin 16) (t : Fin 4096), colT (ix3 b t 0) = BitVec.ofNat 32 t.val)
    (hC : ∀ (b : Fin 16) (t : Fin 4096), colC (ix3 b t 0) = Cert.Spec.clampC (IntOp.addi (x1 (ix2 b t)) d))
    (hU : ∀ (b : Fin 16) (t : Fin 4096), upd (ix2 b t) = dec)
    (b : Fin 16) (t : Fin 4096) (c : Fin 722) :
    Host.scatter scatter_S16x4096x722_S16x4096x3_S16x4096_n_012_012_2 (fun _ u => u) prev
        (concatenate S16x4096x3 2 [⟨S16x4096x1, colB⟩, ⟨S16x4096x1, colT⟩, ⟨S16x4096x1, colC⟩]
          concatenates_S16x4096x1_S16x4096x1_S16x4096x1_S16x4096x3_d2) upd (ix3 b t c)
      = if Cert.Spec.hit (x1 (ix2 b t)) d c then dec else prev (ix3 b t c) := by
  rw [scatter_set_apply prev _ upd
    (fun b t => (concat3_apply colB colT colC b t).1.trans (hB b t))
    (fun b t => (concat3_apply colB colT colC b t).2.1.trans (hT b t))
    (fun b t => by rw [(concat3_apply colB colT colC b t).2.2, hC b t]; exact clampC_range _)
    b t c, (concat3_apply colB colT colC b t).2.2, hC b t, hU b t]
  rfl

/-! ### Round 1: neighbour +3, into the zero array -/

private theorem r1_B (b : Fin 16) (t : Fin 4096) : val_main_v26 (F := Ideal) (ix3 b t 0) = BitVec.ofNat 32 b.val := by
  rw [val_main_v26_apply, val_main_v24_apply, val_main_v13_apply, val_main_v10_apply, val_main_v12_apply, val_main_v9_apply,
    val_main_c_2_apply, val_main_v11_apply, val_main_c_3_apply, val_main_v2_apply, val_main_v1_apply]
  exact wrap_ofNat b.val (by have := b.isLt; omega) _

private theorem r1_T (b : Fin 16) (t : Fin 4096) : val_main_v27 (F := Ideal) (ix3 b t 0) = BitVec.ofNat 32 t.val := by
  rw [val_main_v27_apply, val_main_v25_apply, val_main_v18_apply, val_main_v15_apply, val_main_v17_apply, val_main_v14_apply,
    val_main_c_4_apply, val_main_v16_apply, val_main_c_5_apply, val_main_v4_apply, val_main_v3_apply]
  exact wrap_ofNat t.val (by have := t.isLt; omega) _

private theorem r1_C (x1 : (⟨S16x4096, .i32⟩ : BufTy).Contents (Elt Ideal)) (b : Fin 16) (t : Fin 4096) :
    val_main_v28 (F := Ideal) x1 (ix3 b t 0) = Cert.Spec.clampC (IntOp.addi (x1 (ix2 b t)) 3#32) := by
  have e : idx_main_v28 (ix3 b t (0 : Fin 1)) = ix2 b t := by
    funext a; match a with | ⟨0, _⟩ => rfl | ⟨1, _⟩ => rfl
  have h8 : val_main_v8 (F := Ideal) x1 (ix2 b t) = Cert.Spec.clampC (IntOp.addi (x1 (ix2 b t)) 3#32) := by
    rw [val_main_v8_apply, val_main_call1_v4_apply, val_main_call1_v3_apply, val_main_c_1_apply, val_main_call1_v2_apply,
      val_main_call1_v1_apply, val_main_call1_v0_apply, val_main_c_0_apply, val_main_v7_apply, val_main_v6_apply, val_main_c_apply]
    rfl
  rw [val_main_v28_apply, e, val_main_v23_apply, val_main_v20_apply, val_main_v22_apply, val_main_v19_apply, val_main_c_6_apply,
    val_main_v21_apply, val_main_c_7_apply, h8]
  exact wrap_of_nonneg _ _ (clampC_range _).1

private theorem r1_U (b : Fin 16) (t : Fin 4096) : val_main_v30 (F := Ideal) (ix2 b t) = Cert.Spec.dec3 := by
  rw [val_main_v30_apply, val_main_cst_8_apply]; rfl

private theorem r1_apply (x1 : (⟨S16x4096, .i32⟩ : BufTy).Contents (Elt Ideal)) (b : Fin 16) (t : Fin 4096) (c : Fin 722) :
    val_main_v31 (F := Ideal) x1 (ix3 b t c)
      = if Cert.Spec.hit (x1 (ix2 b t)) 3#32 c then Cert.Spec.dec3 else Cert.Spec.zeroW := by
  have h5 : val_main_v5 (F := Ideal) (ix3 b t c) = Cert.Spec.zeroW := by
    rw [val_main_v5_apply, val_main_cst_apply]; rfl
  unfold val_main_v31 val_main_v29
  rw [round_apply _ x1 _ _ _ _ 3#32 Cert.Spec.dec3 r1_B r1_T (r1_C x1) r1_U b t c, h5]

/-! ### Round 2: neighbour −3 (the word 2³² − 3), over round 1 -/

private theorem r2_B (b : Fin 16) (t : Fin 4096) : val_main_v52 (F := Ideal) (ix3 b t 0) = BitVec.ofNat 32 b.val := by
  rw [val_main_v52_apply, val_main_v50_apply, val_main_v39_apply, val_main_v36_apply, val_main_v38_apply, val_main_v35_apply,
    val_main_c_12_apply, val_main_v37_apply, val_main_c_13_apply, val_main_v2_apply, val_main_v1_apply]
  exact wrap_ofNat b.val (by have := b.isLt; omega) _

private theorem r2_T (b : Fin 16) (t : Fin 4096) : val_main_v53 (F := Ideal) (ix3 b t 0) = BitVec.ofNat 32 t.val := by
  rw [val_main_v53_apply, val_main_v51_apply, val_main_v44_apply, val_main_v41_apply, val_main_v43_apply, val_main_v40_apply,
    val_main_c_14_apply, val_main_v42_apply, val_main_c_15_apply, val_main_v4_apply, val_main_v3_apply]
  exact wrap_ofNat t.val (by have := t.isLt; omega) _

private theorem r2_C (x1 : (⟨S16x4096, .i32⟩ : BufTy).Contents (Elt Ideal)) (b : Fin 16) (t : Fin 4096) :
    val_main_v54 (F := Ideal) x1 (ix3 b t 0) = Cert.Spec.clampC (IntOp.addi (x1 (ix2 b t)) 4294967293#32) := by
  have e : idx_main_v54 (ix3 b t (0 : Fin 1)) = ix2 b t := by
    funext a; match a with | ⟨0, _⟩ => rfl | ⟨1, _⟩ => rfl
  have h8 : val_main_v34 (F := Ideal) x1 (ix2 b t) = Cert.Spec.clampC (IntOp.addi (x1 (ix2 b t)) 4294967293#32) := by
    rw [val_main_v34_apply, val_main_call2_v4_apply, val_main_call2_v3_apply, val_main_c_11_apply, val_main_call2_v2_apply,
      val_main_call2_v1_apply, val_main_call2_v0_apply, val_main_c_10_apply, val_main_v33_apply, val_main_v32_apply, val_main_c_9_apply]
    rfl
  rw [val_main_v54_apply, e, val_main_v49_apply, val_main_v46_apply, val_main_v48_apply, val_main_v45_apply, val_main_c_16_apply,
    val_main_v47_apply, val_main_c_17_apply, h8]
  exact wrap_of_nonneg _ _ (clampC_range _).1

private theorem r2_U (b : Fin 16) (t : Fin 4096) : val_main_v56 (F := Ideal) (ix2 b t) = Cert.Spec.dec3 := by
  rw [val_main_v56_apply, val_main_cst_18_apply]; rfl

private theorem r2_apply (x1 : (⟨S16x4096, .i32⟩ : BufTy).Contents (Elt Ideal)) (b : Fin 16) (t : Fin 4096) (c : Fin 722) :
    val_main_v57 (F := Ideal) x1 (ix3 b t c)
      = if Cert.Spec.hit (x1 (ix2 b t)) 4294967293#32 c then Cert.Spec.dec3 else val_main_v31 (F := Ideal) x1 (ix3 b t c) := by
  unfold val_main_v57 val_main_v55
  rw [round_apply _ x1 _ _ _ _ 4294967293#32 Cert.Spec.dec3 r2_B r2_T (r2_C x1) r2_U b t c]

/-! ### Round 3: neighbour +2, over round 2 -/

private theorem r3_B (b : Fin 16) (t : Fin 4096) : val_main_v78 (F := Ideal) (ix3 b t 0) = BitVec.ofNat 32 b.val := by
  rw [val_main_v78_apply, val_main_v76_apply, val_main_v65_apply, val_main_v62_apply, val_main_v64_apply, val_main_v61_apply,
    val_main_c_22_apply, val_main_v63_apply, val_main_c_23_apply, val_main_v2_apply, val_main_v1_apply]
  exact wrap_ofNat b.val (by have := b.isLt; omega) _

private theorem r3_T (b : Fin 16) (t : Fin 4096) : val_main_v79 (F := Ideal) (ix3 b t 0) = BitVec.ofNat 32 t.val := by
  rw [val_main_v79_apply, val_main_v77_apply, val_main_v70_apply, val_main_v67_apply, val_main_v69_apply, val_main_v66_apply,
    val_main_c_24_apply, val_main_v68_apply, val_main_c_25_apply, val_main_v4_apply, val_main_v3_apply]
  exact wrap_ofNat t.val (by have := t.isLt; omega) _

private theorem r3_C (x1 : (⟨S16x4096, .i32⟩ : BufTy).Contents (Elt Ideal)) (b : Fin 16) (t : Fin 4096) :
    val_main_v80 (F := Ideal) x1 (ix3 b t 0) = Cert.Spec.clampC (IntOp.addi (x1 (ix2 b t)) 2#32) := by
  have e : idx_main_v80 (ix3 b t (0 : Fin 1)) = ix2 b t := by
    funext a; match a with | ⟨0, _⟩ => rfl | ⟨1, _⟩ => rfl
  have h8 : val_main_v60 (F := Ideal) x1 (ix2 b t) = Cert.Spec.clampC (IntOp.addi (x1 (ix2 b t)) 2#32) := by
    rw [val_main_v60_apply, val_main_call3_v4_apply, val_main_call3_v3_apply, val_main_c_21_apply, val_main_call3_v2_apply,
      val_main_call3_v1_apply, val_main_call3_v0_apply, val_main_c_20_apply, val_main_v59_apply, val_main_v58_apply, val_main_c_19_apply]
    rfl
  rw [val_main_v80_apply, e, val_main_v75_apply, val_main_v72_apply, val_main_v74_apply, val_main_v71_apply, val_main_c_26_apply,
    val_main_v73_apply, val_main_c_27_apply, h8]
  exact wrap_of_nonneg _ _ (clampC_range _).1

private theorem r3_U (b : Fin 16) (t : Fin 4096) : val_main_v82 (F := Ideal) (ix2 b t) = Cert.Spec.dec2 := by
  rw [val_main_v82_apply, val_main_cst_28_apply]; rfl

private theorem r3_apply (x1 : (⟨S16x4096, .i32⟩ : BufTy).Contents (Elt Ideal)) (b : Fin 16) (t : Fin 4096) (c : Fin 722) :
    val_main_v83 (F := Ideal) x1 (ix3 b t c)
      = if Cert.Spec.hit (x1 (ix2 b t)) 2#32 c then Cert.Spec.dec2 else val_main_v57 (F := Ideal) x1 (ix3 b t c) := by
  unfold val_main_v83 val_main_v81
  rw [round_apply _ x1 _ _ _ _ 2#32 Cert.Spec.dec2 r3_B r3_T (r3_C x1) r3_U b t c]

/-! ### Round 4: neighbour −2 (the word 2³² − 2), over round 3 -/

private theorem r4_B (b : Fin 16) (t : Fin 4096) : val_main_v104 (F := Ideal) (ix3 b t 0) = BitVec.ofNat 32 b.val := by
  rw [val_main_v104_apply, val_main_v102_apply, val_main_v91_apply, val_main_v88_apply, val_main_v90_apply, val_main_v87_apply,
    val_main_c_32_apply, val_main_v89_apply, val_main_c_33_apply, val_main_v2_apply, val_main_v1_apply]
  exact wrap_ofNat b.val (by have := b.isLt; omega) _

private theorem r4_T (b : Fin 16) (t : Fin 4096) : val_main_v105 (F := Ideal) (ix3 b t 0) = BitVec.ofNat 32 t.val := by
  rw [val_main_v105_apply, val_main_v103_apply, val_main_v96_apply, val_main_v93_apply, val_main_v95_apply, val_main_v92_apply,
    val_main_c_34_apply, val_main_v94_apply, val_main_c_35_apply, val_main_v4_apply, val_main_v3_apply]
  exact wrap_ofNat t.val (by have := t.isLt; omega) _

private theorem r4_C (x1 : (⟨S16x4096, .i32⟩ : BufTy).Contents (Elt Ideal)) (b : Fin 16) (t : Fin 4096) :
    val_main_v106 (F := Ideal) x1 (ix3 b t 0) = Cert.Spec.clampC (IntOp.addi (x1 (ix2 b t)) 4294967294#32) := by
  have e : idx_main_v106 (ix3 b t (0 : Fin 1)) = ix2 b t := by
    funext a; match a with | ⟨0, _⟩ => rfl | ⟨1, _⟩ => rfl
  have h8 : val_main_v86 (F := Ideal) x1 (ix2 b t) = Cert.Spec.clampC (IntOp.addi (x1 (ix2 b t)) 4294967294#32) := by
    rw [val_main_v86_apply, val_main_call4_v4_apply, val_main_call4_v3_apply, val_main_c_31_apply, val_main_call4_v2_apply,
      val_main_call4_v1_apply, val_main_call4_v0_apply, val_main_c_30_apply, val_main_v85_apply, val_main_v84_apply, val_main_c_29_apply]
    rfl
  rw [val_main_v106_apply, e, val_main_v101_apply, val_main_v98_apply, val_main_v100_apply, val_main_v97_apply, val_main_c_36_apply,
    val_main_v99_apply, val_main_c_37_apply, h8]
  exact wrap_of_nonneg _ _ (clampC_range _).1

private theorem r4_U (b : Fin 16) (t : Fin 4096) : val_main_v108 (F := Ideal) (ix2 b t) = Cert.Spec.dec2 := by
  rw [val_main_v108_apply, val_main_cst_38_apply]; rfl

private theorem r4_apply (x1 : (⟨S16x4096, .i32⟩ : BufTy).Contents (Elt Ideal)) (b : Fin 16) (t : Fin 4096) (c : Fin 722) :
    val_main_v109 (F := Ideal) x1 (ix3 b t c)
      = if Cert.Spec.hit (x1 (ix2 b t)) 4294967294#32 c then Cert.Spec.dec2 else val_main_v83 (F := Ideal) x1 (ix3 b t c) := by
  unfold val_main_v109 val_main_v107
  rw [round_apply _ x1 _ _ _ _ 4294967294#32 Cert.Spec.dec2 r4_B r4_T (r4_C x1) r4_U b t c]

/-! ### Round 5: neighbour +1, over round 4 -/

private theorem r5_B (b : Fin 16) (t : Fin 4096) : val_main_v130 (F := Ideal) (ix3 b t 0) = BitVec.ofNat 32 b.val := by
  rw [val_main_v130_apply, val_main_v128_apply, val_main_v117_apply, val_main_v114_apply, val_main_v116_apply, val_main_v113_apply,
    val_main_c_42_apply, val_main_v115_apply, val_main_c_43_apply, val_main_v2_apply, val_main_v1_apply]
  exact wrap_ofNat b.val (by have := b.isLt; omega) _

private theorem r5_T (b : Fin 16) (t : Fin 4096) : val_main_v131 (F := Ideal) (ix3 b t 0) = BitVec.ofNat 32 t.val := by
  rw [val_main_v131_apply, val_main_v129_apply, val_main_v122_apply, val_main_v119_apply, val_main_v121_apply, val_main_v118_apply,
    val_main_c_44_apply, val_main_v120_apply, val_main_c_45_apply, val_main_v4_apply, val_main_v3_apply]
  exact wrap_ofNat t.val (by have := t.isLt; omega) _

private theorem r5_C (x1 : (⟨S16x4096, .i32⟩ : BufTy).Contents (Elt Ideal)) (b : Fin 16) (t : Fin 4096) :
    val_main_v132 (F := Ideal) x1 (ix3 b t 0) = Cert.Spec.clampC (IntOp.addi (x1 (ix2 b t)) 1#32) := by
  have e : idx_main_v132 (ix3 b t (0 : Fin 1)) = ix2 b t := by
    funext a; match a with | ⟨0, _⟩ => rfl | ⟨1, _⟩ => rfl
  have h8 : val_main_v112 (F := Ideal) x1 (ix2 b t) = Cert.Spec.clampC (IntOp.addi (x1 (ix2 b t)) 1#32) := by
    rw [val_main_v112_apply, val_main_call5_v4_apply, val_main_call5_v3_apply, val_main_c_41_apply, val_main_call5_v2_apply,
      val_main_call5_v1_apply, val_main_call5_v0_apply, val_main_c_40_apply, val_main_v111_apply, val_main_v110_apply, val_main_c_39_apply]
    rfl
  rw [val_main_v132_apply, e, val_main_v127_apply, val_main_v124_apply, val_main_v126_apply, val_main_v123_apply, val_main_c_46_apply,
    val_main_v125_apply, val_main_c_47_apply, h8]
  exact wrap_of_nonneg _ _ (clampC_range _).1

private theorem r5_U (b : Fin 16) (t : Fin 4096) : val_main_v134 (F := Ideal) (ix2 b t) = Cert.Spec.dec1 := by
  rw [val_main_v134_apply, val_main_cst_48_apply]; rfl

private theorem r5_apply (x1 : (⟨S16x4096, .i32⟩ : BufTy).Contents (Elt Ideal)) (b : Fin 16) (t : Fin 4096) (c : Fin 722) :
    val_main_v135 (F := Ideal) x1 (ix3 b t c)
      = if Cert.Spec.hit (x1 (ix2 b t)) 1#32 c then Cert.Spec.dec1 else val_main_v109 (F := Ideal) x1 (ix3 b t c) := by
  unfold val_main_v135 val_main_v133
  rw [round_apply _ x1 _ _ _ _ 1#32 Cert.Spec.dec1 r5_B r5_T (r5_C x1) r5_U b t c]

/-! ### Round 6: neighbour −1 (the word 2³² − 1), over round 5 -/

private theorem r6_B (b : Fin 16) (t : Fin 4096) : val_main_v156 (F := Ideal) (ix3 b t 0) = BitVec.ofNat 32 b.val := by
  rw [val_main_v156_apply, val_main_v154_apply, val_main_v143_apply, val_main_v140_apply, val_main_v142_apply, val_main_v139_apply,
    val_main_c_52_apply, val_main_v141_apply, val_main_c_53_apply, val_main_v2_apply, val_main_v1_apply]
  exact wrap_ofNat b.val (by have := b.isLt; omega) _

private theorem r6_T (b : Fin 16) (t : Fin 4096) : val_main_v157 (F := Ideal) (ix3 b t 0) = BitVec.ofNat 32 t.val := by
  rw [val_main_v157_apply, val_main_v155_apply, val_main_v148_apply, val_main_v145_apply, val_main_v147_apply, val_main_v144_apply,
    val_main_c_54_apply, val_main_v146_apply, val_main_c_55_apply, val_main_v4_apply, val_main_v3_apply]
  exact wrap_ofNat t.val (by have := t.isLt; omega) _

private theorem r6_C (x1 : (⟨S16x4096, .i32⟩ : BufTy).Contents (Elt Ideal)) (b : Fin 16) (t : Fin 4096) :
    val_main_v158 (F := Ideal) x1 (ix3 b t 0) = Cert.Spec.clampC (IntOp.addi (x1 (ix2 b t)) 4294967295#32) := by
  have e : idx_main_v158 (ix3 b t (0 : Fin 1)) = ix2 b t := by
    funext a; match a with | ⟨0, _⟩ => rfl | ⟨1, _⟩ => rfl
  have h8 : val_main_v138 (F := Ideal) x1 (ix2 b t) = Cert.Spec.clampC (IntOp.addi (x1 (ix2 b t)) 4294967295#32) := by
    rw [val_main_v138_apply, val_main_call6_v4_apply, val_main_call6_v3_apply, val_main_c_51_apply, val_main_call6_v2_apply,
      val_main_call6_v1_apply, val_main_call6_v0_apply, val_main_c_50_apply, val_main_v137_apply, val_main_v136_apply, val_main_c_49_apply]
    rfl
  rw [val_main_v158_apply, e, val_main_v153_apply, val_main_v150_apply, val_main_v152_apply, val_main_v149_apply, val_main_c_56_apply,
    val_main_v151_apply, val_main_c_57_apply, h8]
  exact wrap_of_nonneg _ _ (clampC_range _).1

private theorem r6_U (b : Fin 16) (t : Fin 4096) : val_main_v160 (F := Ideal) (ix2 b t) = Cert.Spec.dec1 := by
  rw [val_main_v160_apply, val_main_cst_58_apply]; rfl

private theorem r6_apply (x1 : (⟨S16x4096, .i32⟩ : BufTy).Contents (Elt Ideal)) (b : Fin 16) (t : Fin 4096) (c : Fin 722) :
    val_main_v161 (F := Ideal) x1 (ix3 b t c)
      = if Cert.Spec.hit (x1 (ix2 b t)) 4294967295#32 c then Cert.Spec.dec1 else val_main_v135 (F := Ideal) x1 (ix3 b t c) := by
  unfold val_main_v161 val_main_v159
  rw [round_apply _ x1 _ _ _ _ 4294967295#32 Cert.Spec.dec1 r6_B r6_T (r6_C x1) r6_U b t c]

/-! ### Round 7: the target class itself (neighbour +0), over round 6 -/

private theorem r7_B (b : Fin 16) (t : Fin 4096) : val_main_v182 (F := Ideal) (ix3 b t 0) = BitVec.ofNat 32 b.val := by
  rw [val_main_v182_apply, val_main_v180_apply, val_main_v169_apply, val_main_v166_apply, val_main_v168_apply, val_main_v165_apply,
    val_main_c_62_apply, val_main_v167_apply, val_main_c_63_apply, val_main_v2_apply, val_main_v1_apply]
  exact wrap_ofNat b.val (by have := b.isLt; omega) _

private theorem r7_T (b : Fin 16) (t : Fin 4096) : val_main_v183 (F := Ideal) (ix3 b t 0) = BitVec.ofNat 32 t.val := by
  rw [val_main_v183_apply, val_main_v181_apply, val_main_v174_apply, val_main_v171_apply, val_main_v173_apply, val_main_v170_apply,
    val_main_c_64_apply, val_main_v172_apply, val_main_c_65_apply, val_main_v4_apply, val_main_v3_apply]
  exact wrap_ofNat t.val (by have := t.isLt; omega) _

private theorem r7_C (x1 : (⟨S16x4096, .i32⟩ : BufTy).Contents (Elt Ideal)) (b : Fin 16) (t : Fin 4096) :
    val_main_v184 (F := Ideal) x1 (ix3 b t 0) = Cert.Spec.clampC (IntOp.addi (x1 (ix2 b t)) 0#32) := by
  have e : idx_main_v184 (ix3 b t (0 : Fin 1)) = ix2 b t := by
    funext a; match a with | ⟨0, _⟩ => rfl | ⟨1, _⟩ => rfl
  have h8 : val_main_v164 (F := Ideal) x1 (ix2 b t) = Cert.Spec.clampC (IntOp.addi (x1 (ix2 b t)) 0#32) := by
    rw [val_main_v164_apply, val_main_call7_v4_apply, val_main_call7_v3_apply, val_main_c_61_apply, val_main_call7_v2_apply,
      val_main_call7_v1_apply, val_main_call7_v0_apply, val_main_c_60_apply, val_main_v163_apply, val_main_v162_apply, val_main_c_59_apply]
    rfl
  rw [val_main_v184_apply, e, val_main_v179_apply, val_main_v176_apply, val_main_v178_apply, val_main_v175_apply, val_main_c_66_apply,
    val_main_v177_apply, val_main_c_67_apply, h8]
  exact wrap_of_nonneg _ _ (clampC_range _).1

private theorem r7_U (b : Fin 16) (t : Fin 4096) : val_main_v186 (F := Ideal) (ix2 b t) = Cert.Spec.dec0 := by
  rw [val_main_v186_apply, val_main_cst_68_apply]; rfl

private theorem r7_apply (x1 : (⟨S16x4096, .i32⟩ : BufTy).Contents (Elt Ideal)) (b : Fin 16) (t : Fin 4096) (c : Fin 722) :
    val_main_v187 (F := Ideal) x1 (ix3 b t c)
      = if Cert.Spec.hit (x1 (ix2 b t)) 0#32 c then Cert.Spec.dec0 else val_main_v161 (F := Ideal) x1 (ix3 b t c) := by
  unfold val_main_v187 val_main_v185
  rw [round_apply _ x1 _ _ _ _ 0#32 Cert.Spec.dec0 r7_B r7_T (r7_C x1) r7_U b t c]

/-! ### Round 8: the target class once more (neighbour −0), over round 7 -/

private theorem r8_B (b : Fin 16) (t : Fin 4096) : val_main_v208 (F := Ideal) (ix3 b t 0) = BitVec.ofNat 32 b.val := by
  rw [val_main_v208_apply, val_main_v206_apply, val_main_v195_apply, val_main_v192_apply, val_main_v194_apply, val_main_v191_apply,
    val_main_c_72_apply, val_main_v193_apply, val_main_c_73_apply, val_main_v2_apply, val_main_v1_apply]
  exact wrap_ofNat b.val (by have := b.isLt; omega) _

private theorem r8_T (b : Fin 16) (t : Fin 4096) : val_main_v209 (F := Ideal) (ix3 b t 0) = BitVec.ofNat 32 t.val := by
  rw [val_main_v209_apply, val_main_v207_apply, val_main_v200_apply, val_main_v197_apply, val_main_v199_apply, val_main_v196_apply,
    val_main_c_74_apply, val_main_v198_apply, val_main_c_75_apply, val_main_v4_apply, val_main_v3_apply]
  exact wrap_ofNat t.val (by have := t.isLt; omega) _

private theorem r8_C (x1 : (⟨S16x4096, .i32⟩ : BufTy).Contents (Elt Ideal)) (b : Fin 16) (t : Fin 4096) :
    val_main_v210 (F := Ideal) x1 (ix3 b t 0) = Cert.Spec.clampC (IntOp.addi (x1 (ix2 b t)) 0#32) := by
  have e : idx_main_v210 (ix3 b t (0 : Fin 1)) = ix2 b t := by
    funext a; match a with | ⟨0, _⟩ => rfl | ⟨1, _⟩ => rfl
  have h8 : val_main_v190 (F := Ideal) x1 (ix2 b t) = Cert.Spec.clampC (IntOp.addi (x1 (ix2 b t)) 0#32) := by
    rw [val_main_v190_apply, val_main_call8_v4_apply, val_main_call8_v3_apply, val_main_c_71_apply, val_main_call8_v2_apply,
      val_main_call8_v1_apply, val_main_call8_v0_apply, val_main_c_70_apply, val_main_v189_apply, val_main_v188_apply, val_main_c_69_apply]
    rfl
  rw [val_main_v210_apply, e, val_main_v205_apply, val_main_v202_apply, val_main_v204_apply, val_main_v201_apply, val_main_c_76_apply,
    val_main_v203_apply, val_main_c_77_apply, h8]
  exact wrap_of_nonneg _ _ (clampC_range _).1

private theorem r8_U (b : Fin 16) (t : Fin 4096) : val_main_v212 (F := Ideal) (ix2 b t) = Cert.Spec.dec0 := by
  rw [val_main_v212_apply, val_main_cst_78_apply]; rfl

private theorem r8_apply (x1 : (⟨S16x4096, .i32⟩ : BufTy).Contents (Elt Ideal)) (b : Fin 16) (t : Fin 4096) (c : Fin 722) :
    val_main_v213 (F := Ideal) x1 (ix3 b t c)
      = if Cert.Spec.hit (x1 (ix2 b t)) 0#32 c then Cert.Spec.dec0 else val_main_v187 (F := Ideal) x1 (ix3 b t c) := by
  unfold val_main_v213 val_main_v211
  rw [round_apply _ x1 _ _ _ _ 0#32 Cert.Spec.dec0 r8_B r8_T (r8_C x1) r8_U b t c]

/-! ### The eight rounds together -/

/-- The smoothed one-hot array at (b, t, c) is the weight of class `c` for the frame's target word: the rounds nest with
    the last one outermost, which is the order the weight tests its eight overwrites in. -/
theorem onehot_apply (x1 : (⟨S16x4096, .i32⟩ : BufTy).Contents (Elt Ideal)) (b : Fin 16) (t : Fin 4096) (c : Fin 722) :
    val_main_v213 (F := Ideal) x1 (ix3 b t c) = Cert.Spec.wt (x1 (ix2 b t)) c := by
  rw [r8_apply, r7_apply, r6_apply, r5_apply, r4_apply, r3_apply, r2_apply, r1_apply]
  rfl

end Cert.ReferenceIdeal.RefValue

end
-- ==== Proof.RefValue.lean ====
/-
  The reference's result: each frame's loss is the negated sum over the classes of log-softmax times weight; the
  result is the sum of the frames' losses over 65536.
-/
import proofs.«415570_j35390530519630_1_alg».proof.Proof.RefSoftmax
import proofs.«415570_j35390530519630_1_alg».proof.Proof.RefOnehot
import proofs.«415570_j35390530519630_1_alg».proof.Proof.SumLaw

set_option maxRecDepth 16384

noncomputable section

namespace Cert.ReferenceIdeal.RefValue

open Cert.ReferenceIdeal Cert.ReferenceIdeal.Gen Cert.ReferenceIdeal.ReadP Idealize.ShloMosaic Idealize.ShloMosaic.ValueIdx

theorem frame_loss (x0 : (⟨S16x4096x722, .f32⟩ : BufTy).Contents (Elt Ideal)) (x1 : (⟨S16x4096, .i32⟩ : BufTy).Contents (Elt Ideal))
    (b : Fin 16) (t : Fin 4096) :
    val_main_v216 (F := Ideal) x0 x1 (ix2 b t) = Cert.Spec.rowLoss (fun k => x0 (ix3 b t k)) (x1 (ix2 b t)) := by
  -- the negated host sum over the class axis, started from the zero pattern, of log-softmax times weight
  rw [val_main_v216_apply, val_main_v215_apply]
  have hidx : ∀ k : Fin 722, idx_main_v215 (ix2 b t) k = ix3 b t k := fun k =>
    funext fun a => Fin.ext (by match a with | ⟨0, _⟩ => rfl | ⟨1, _⟩ => rfl | ⟨2, _⟩ => rfl)
  simp only [hidx, val_main_v214_apply, logp_apply, onehot_apply, val_main_cst_79_apply]
  simp only [Ideal.hostNegf_def, Ideal.negf_def, Ideal.mulf_def, Ideal.ofBits_def, Ideal.ofBits_zero_f32, zero_add]
  rfl

theorem result (x0 : (⟨S16x4096x722, .f32⟩ : BufTy).Contents (Elt Ideal)) (x1 : (⟨S16x4096, .i32⟩ : BufTy).Contents (Elt Ideal)) :
    val_main_v218 (F := Ideal) x0 x1 = fun _ => Cert.Spec.final x0 x1 := by
  funext i
  -- the frames' losses summed over the [16, 4096] index type are the double sum over batch row and frame
  have h : ∑ j : S16x4096.Idx, val_main_v216 (F := Ideal) x0 x1 j
      = ∑ b : Fin 16, ∑ t : Fin 4096, Cert.Spec.rowLoss (fun c => x0 (ix3 b t c)) (x1 (ix2 b t)) := by
    rw [← Cert.Spec.sum_frames (fun b t => Cert.Spec.rowLoss (fun c => x0 (ix3 b t c)) (x1 (ix2 b t)))]
    exact Finset.sum_congr rfl fun j _ =>
      (congrArg (val_main_v216 (F := Ideal) x0 x1) (eq_ix2 j)).trans (frame_loss x0 x1 (j 0) (j 1))
  rw [val_main_v218_apply, val_main_v217_apply, val_main_cst_81_apply, val_main_cst_80_apply, h]
  simp only [Ideal.hostDivf_def, Ideal.ofBits_def]
  rfl

end Cert.ReferenceIdeal.RefValue

end
-- ==== Proof.lean ====
/-
  The certificate: the Pallas kernel (a (16, 4) grid over blocks of 1024 frames, an accumulator whose corner collects a
  batch row's four block losses, a host sum and a division by 65536) and the jnp reference (a log-softmax, eight
  `set`-scatters building the smoothed one-hot weights, a sum over classes, a mean) compute, at the extended reals,
  one number: the sum over the 16 × 4096 frames of −Σ_c logp·weight, over 65536 (`Cert.Spec.final`).
  The two sides differ only in how the weight row is built (a chain of selects on a class iota against scattering
  one value per frame) and in how the frames' losses are added up; the first is an elementwise identity, the second
  the commutativity and associativity of addition on the extended reals. No finiteness of the logits is used.
-/
import proofs.«415570_j35390530519630_1_alg».proof.Defs
import proofs.«415570_j35390530519630_1_alg».proof.Proof.Gen.Kernel
import proofs.«415570_j35390530519630_1_alg».proof.Proof.Gen.Kernel.Skeleton
import proofs.«415570_j35390530519630_1_alg».proof.Proof.Gen.Kernel.Launch
import proofs.«415570_j35390530519630_1_alg».proof.Proof.Gen.Kernel.Points
import proofs.«415570_j35390530519630_1_alg».proof.Proof.Gen.Kernel.Frame
import proofs.«415570_j35390530519630_1_alg».proof.Proof.Gen.KernelIdeal
import proofs.«415570_j35390530519630_1_alg».proof.Proof.Gen.KernelIdeal.Skeleton
import proofs.«415570_j35390530519630_1_alg».proof.Proof.Gen.KernelIdeal.Launch
import proofs.«415570_j35390530519630_1_alg».proof.Proof.Gen.KernelIdeal.Points
import proofs.«415570_j35390530519630_1_alg».proof.Proof.Gen.KernelIdeal.Frame
import proofs.«415570_j35390530519630_1_alg».proof.Proof.Gen.ReferenceIdeal
import proofs.«415570_j35390530519630_1_alg».proof.Proof.Gen.Pre_finite_inputs
import Idealize.ShloMosaic.Adequacy
import Idealize.ShloMosaic.Init
import proofs.«415570_j35390530519630_1_alg».proof.Proof.KArr
import proofs.«415570_j35390530519630_1_alg».proof.Proof.RefRun
import proofs.«415570_j35390530519630_1_alg».proof.Proof.RefValue

noncomputable section

namespace Cert.Proof

open Idealize.ShloMosaic Idealize.SL.Sem

/-- The word-level kernel runs and leaves its arguments unchanged: the frame of the pipelined region. -/
theorem frame_Kernel : Cert.frame_Kernel := fun m ρ _ => Cert.Kernel.Gen.frame m ρ

/-- The same of the idealized kernel. -/
theorem frame_KernelIdeal : Cert.frame_KernelIdeal := fun m ρ _ => Cert.KernelIdeal.Gen.frame m ρ

/-- The reference is a host program: its run with the result dropped. -/
theorem frame_ReferenceIdeal : Cert.frame_ReferenceIdeal := fun m ρ _ =>
  (θ_run Cert.ReferenceIdeal.defs _ _).mono (fun _ h c => (h c).2) (Cert.ReferenceIdeal.RefRun.run (F := Ideal) m ρ)

/-- Both programs end with the batch's loss over 65536 of the argument arrays, which agree. -/
theorem algebraic : Cert.algebraic_KernelIdeal_ReferenceIdeal := by
  intro m ρ m' ρ' _ hagree
  refine ⟨fun c => fun _ => Cert.Spec.final (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KArr.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.result _ _

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
